-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel

variable [Facts]

def fn {F : FTy → Type} [FloatOps F] (main_arg0 : FVec F S1000000x3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  main_v3
-- ==== Kernel.lean ====
abbrev S1000000x3 : Shape := ⟨2, ![1000000, 3]⟩
abbrev S1000000x195 : Shape := ⟨2, ![1000000, 195]⟩
abbrev S2000x3 : Shape := ⟨2, ![2000, 3]⟩
abbrev S2000x195 : Shape := ⟨2, ![2000, 195]⟩
abbrev S2000x64 : Shape := ⟨2, ![2000, 64]⟩
abbrev S2000x1 : Shape := ⟨2, ![2000, 1]⟩

abbrev nBuf : Space → Nat
  | .hbm => 2
  | .vmem => 4
  | .smem => 0
  | _ => 0

abbrev bufTy : (tb : Table) → Fin (tcTables nBuf tb) → BufTy
  | .hbm, ⟨0, _⟩ => ⟨S1000000x3, .f32⟩
  | .hbm, ⟨1, _⟩ => ⟨S1000000x195, .f32⟩
  | .local _ .vmem, ⟨0, _⟩ => ⟨S2000x3, .f32⟩
  | .local _ .vmem, ⟨1, _⟩ => ⟨S2000x3, .f32⟩
  | .local _ .vmem, ⟨2, _⟩ => ⟨S2000x195, .f32⟩
  | .local _ .vmem, ⟨3, _⟩ => ⟨S2000x195, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x195 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2000x3_S2000x3_0_0 : ∀ a, (![0, 0] : Fin 2 → Nat) a + S2000x3.size a ≤ S2000x3.size a
  h_S2000x3 : 0 < S2000x3.numel
  iota_S2000x64_d1_w32 : S2000x64.Iotas .tc 32 [1]
  slices_S2000x3_o0_0_S2000x1 : S2000x3.Slices ![0, 0] S2000x1
  broadcasts_S2000x1_S2000x64 : S2000x1.Broadcasts S2000x64
  natLt_1_32 : 1 < 32
  slices_S2000x3_o0_1_S2000x1 : S2000x3.Slices ![0, 1] S2000x1
  slices_S2000x3_o0_2_S2000x1 : S2000x3.Slices ![0, 2] S2000x1
  concatenates_S2000x1_S2000x64_S2000x1_S2000x64_S2000x1_S2000x64_S2000x195_d1 : Shape.Concatenates [S2000x1, S2000x64, S2000x1, S2000x64, S2000x1, S2000x64] S2000x195 1
  inb_S2000x195_S2000x195_0_0 : ∀ a, (![0, 0] : Fin 2 → Nat) a + S2000x195.size a ≤ S2000x195.size a
  h_S2000x195 : 0 < S2000x195.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S1000000x3.size a
  hwx0_0 : ∀ i : grid0.Coords, EltTy.bits .f32 = 32 ∨ (Rect.block (s := S1000000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x195.size a ≤ S1000000x195.size a
  hwx0_1 : ∀ i : grid0.Coords, EltTy.bits .f32 = 32 ∨ (Rect.block (s := S1000000x195) S2000x195.size (cc0_transform_1 i) (hinb0_1 i)).WholeWords (EltTy.packing .f32)

variable [Facts₀]

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x195.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S_ : Shape := ⟨0, ![]⟩
abbrev S1000000x3x1 : Shape := ⟨3, ![1000000, 3, 1]⟩
abbrev S1000000x3x4 : Shape := ⟨3, ![1000000, 3, 4]⟩
abbrev S4 : Shape := ⟨1, ![4]⟩
abbrev S1x1x4 : Shape := ⟨3, ![1, 1, 4]⟩
abbrev S1000000 : Shape := ⟨1, ![1000000]⟩
abbrev S1000000x1x1 : Shape := ⟨3, ![1000000, 1, 1]⟩
abbrev S3 : Shape := ⟨1, ![3]⟩
abbrev S1x3x1 : Shape := ⟨3, ![1, 3, 1]⟩
abbrev S1000000x3x64 : Shape := ⟨3, ![1000000, 3, 64]⟩
abbrev S1000000x3x4x1 : Shape := ⟨4, ![1000000, 3, 4, 1]⟩
abbrev S1000000x3x4x3 : Shape := ⟨4, ![1000000, 3, 4, 3]⟩
abbrev S1000000x3x65 : Shape := ⟨3, ![1000000, 3, 65]⟩
abbrev S1000000x195 : Shape := ⟨2, ![1000000, 195]⟩

abbrev nBuf : Space → Nat
  | .hbm => 110
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S_, .f32⟩
  | .hbm, ⟨2, _⟩ => ⟨S1000000x3, .f32⟩
  | .hbm, ⟨3, _⟩ => ⟨S1000000x3, .f32⟩
  | .hbm, ⟨4, _⟩ => ⟨S_, .f32⟩
  | .hbm, ⟨5, _⟩ => ⟨S1000000x3, .f32⟩
  | .hbm, ⟨6, _⟩ => ⟨S1000000x3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1000000x3, .f32⟩
  | .hbm, ⟨11, _⟩ => ⟨S1000000x3, .f32⟩
  | .hbm, ⟨12, _⟩ => ⟨S_, .f32⟩
  | .hbm, ⟨13, _⟩ => ⟨S1000000x3, .f32⟩
  | .hbm, ⟨14, _⟩ => ⟨S1000000x3, .f32⟩
  | .hbm, ⟨15, _⟩ => ⟨S1000000x3, .f32⟩
  | .hbm, ⟨16, _⟩ => ⟨S1000000x3, .i32⟩
  | .hbm, ⟨17, _⟩ => ⟨S1000000x3, .f32⟩
  | .hbm, ⟨18, _⟩ => ⟨S1000000x3, .f32⟩
  | .hbm, ⟨19, _⟩ => ⟨S1000000x3, .f32⟩
  | .hbm, ⟨20, _⟩ => ⟨S1000000x3, .f32⟩
  | .hbm, ⟨21, _⟩ => ⟨S_, .f32⟩
  | .hbm, ⟨22, _⟩ => ⟨S1000000x3, .f32⟩
  | .hbm, ⟨23, _⟩ => ⟨S1000000x3, .f32⟩
  | .hbm, ⟨24, _⟩ => ⟨S1000000x3, .f32⟩
  | .hbm, ⟨25, _⟩ => ⟨S1000000x3, .f32⟩
  | .hbm, ⟨26, _⟩ => ⟨S_, .f32⟩
  | .hbm, ⟨27, _⟩ => ⟨S1000000x3, .f32⟩
  | .hbm, ⟨28, _⟩ => ⟨S1000000x3, .f32⟩
  | .hbm, ⟨29, _⟩ => ⟨S_, .f32⟩
  | .hbm, ⟨30, _⟩ => ⟨S1000000x3, .f32⟩
  | .hbm, ⟨31, _⟩ => ⟨S1000000x3, .f32⟩
  | .hbm, ⟨32, _⟩ => ⟨S_, .f32⟩
  | .hbm, ⟨33, _⟩ => ⟨S1000000x3, .f32⟩
  | .hbm, ⟨34, _⟩ => ⟨S1000000x3, .f32⟩
  | .hbm, ⟨35, _⟩ => ⟨S1000000x3, .f32⟩
  | .hbm, ⟨36, _⟩ => ⟨S_, .f32⟩
  | .hbm, ⟨37, _⟩ => ⟨S1000000x3, .f32⟩
  | .hbm, ⟨38, _⟩ => ⟨S1000000x3, .f32⟩
  | .hbm, ⟨39, _⟩ => ⟨S_, .f32⟩
  | .hbm, ⟨40, _⟩ => ⟨S1000000x3, .f32⟩
  | .hbm, ⟨41, _⟩ => ⟨S1000000x3, .f32⟩
  | .hbm, ⟨42, _⟩ => ⟨S_, .f32⟩
  | .hbm, ⟨43, _⟩ => ⟨S1000000x3, .f32⟩
  | .hbm, ⟨44, _⟩ => ⟨S1000000x3, .f32⟩
  | .hbm, ⟨45, _⟩ => ⟨S_, .f32⟩
  | .hbm, ⟨46, _⟩ => ⟨S1000000x3, .f32⟩
  | .hbm, ⟨47, _⟩ => ⟨S1000000x3, .f32⟩
  | .hbm, ⟨48, _⟩ => ⟨S1000000x3, .f32⟩
  | .hbm, ⟨49, _⟩ => ⟨S_, .f32⟩
  | .hbm, ⟨50, _⟩ => ⟨S1000000x3, .f32⟩
  | .hbm, ⟨51, _⟩ => ⟨S1000000x3, .f32⟩
  | .hbm, ⟨52, _⟩ => ⟨S1000000x3, .f32⟩
  | .hbm, ⟨53, _⟩ => ⟨S_, .f32⟩
  | .hbm, ⟨54, _⟩ => ⟨S1000000x3, .f32⟩
  | .hbm, ⟨55, _⟩ => ⟨S1000000x3, .f32⟩
  | .hbm, ⟨56, _⟩ => ⟨S_, .f32⟩
  | .hbm, ⟨57, _⟩ => ⟨S1000000x3, .f32⟩
  | .hbm, ⟨58, _⟩ => ⟨S1000000x3, .f32⟩
  | .hbm, ⟨59, _⟩ => ⟨S_, .f32⟩
  | .hbm, ⟨60, _⟩ => ⟨S1000000x3, .f32⟩
  | .hbm, ⟨61, _⟩ => ⟨S1000000x3, .f32⟩
  | .hbm, ⟨62, _⟩ => ⟨S1000000x3x1, .f32⟩
  | .hbm, ⟨63, _⟩ => ⟨S1000000x3x1, .f32⟩
  | .hbm, ⟨64, _⟩ => ⟨S1000000x3x1, .f32⟩
  | .hbm, ⟨65, _⟩ => ⟨S1000000x3x1, .f32⟩
  | .hbm, ⟨66, _⟩ => ⟨S1000000x3x4, .f32⟩
  | .hbm, ⟨67, _⟩ => ⟨S1000000x3x1, .i32⟩
  | .hbm, ⟨68, _⟩ => ⟨S4, .i32⟩
  | .hbm, ⟨69, _⟩ => ⟨S1x1x4, .i32⟩
  | .hbm, ⟨70, _⟩ => ⟨S1000000x3x4, .i32⟩
  | .hbm, ⟨71, _⟩ => ⟨S1000000x3x4, .i32⟩
  | .hbm, ⟨72, _⟩ => ⟨S1000000x3x4, .i32⟩
  | .hbm, ⟨73, _⟩ => ⟨S1000000, .i32⟩
  | .hbm, ⟨74, _⟩ => ⟨S1000000x1x1, .i32⟩
  | .hbm, ⟨75, _⟩ => ⟨S3, .i32⟩
  | .hbm, ⟨76, _⟩ => ⟨S1x3x1, .i32⟩
  | .hbm, ⟨77, _⟩ => ⟨S_, .f32⟩
  | .hbm, ⟨78, _⟩ => ⟨S1000000x3x64, .f32⟩
  | .hbm, ⟨79, _⟩ => ⟨S_, .i32⟩
  | .hbm, ⟨80, _⟩ => ⟨S1000000x1x1, .i32⟩
  | .hbm, ⟨81, _⟩ => ⟨S1000000x1x1, .i1⟩
  | .hbm, ⟨82, _⟩ => ⟨S_, .i32⟩
  | .hbm, ⟨83, _⟩ => ⟨S1000000x1x1, .i32⟩
  | .hbm, ⟨84, _⟩ => ⟨S1000000x1x1, .i32⟩
  | .hbm, ⟨85, _⟩ => ⟨S1000000x1x1, .i32⟩
  | .hbm, ⟨86, _⟩ => ⟨S_, .i32⟩
  | .hbm, ⟨87, _⟩ => ⟨S1x3x1, .i32⟩
  | .hbm, ⟨88, _⟩ => ⟨S1x3x1, .i1⟩
  | .hbm, ⟨89, _⟩ => ⟨S_, .i32⟩
  | .hbm, ⟨90, _⟩ => ⟨S1x3x1, .i32⟩
  | .hbm, ⟨91, _⟩ => ⟨S1x3x1, .i32⟩
  | .hbm, ⟨92, _⟩ => ⟨S1x3x1, .i32⟩
  | .hbm, ⟨93, _⟩ => ⟨S_, .i32⟩
  | .hbm, ⟨94, _⟩ => ⟨S1000000x3x4, .i32⟩
  | .hbm, ⟨95, _⟩ => ⟨S1000000x3x4, .i1⟩
  | .hbm, ⟨96, _⟩ => ⟨S_, .i32⟩
  | .hbm, ⟨97, _⟩ => ⟨S1000000x3x4, .i32⟩
  | .hbm, ⟨98, _⟩ => ⟨S1000000x3x4, .i32⟩
  | .hbm, ⟨99, _⟩ => ⟨S1000000x3x4, .i32⟩
  | .hbm, ⟨100, _⟩ => ⟨S1000000x3x4, .i32⟩
  | .hbm, ⟨101, _⟩ => ⟨S1000000x3x4, .i32⟩
  | .hbm, ⟨102, _⟩ => ⟨S1000000x3x4x1, .i32⟩
  | .hbm, ⟨103, _⟩ => ⟨S1000000x3x4x1, .i32⟩
  | .hbm, ⟨104, _⟩ => ⟨S1000000x3x4x1, .i32⟩
  | .hbm, ⟨105, _⟩ => ⟨S1000000x3x4x3, .i32⟩
  | .hbm, ⟨106, _⟩ => ⟨S1000000x3x64, .f32⟩
  | .hbm, ⟨107, _⟩ => ⟨S1000000x3x1, .f32⟩
  | .hbm, ⟨108, _⟩ => ⟨S1000000x3x65, .f32⟩
  | .hbm, ⟨109, _⟩ => ⟨S1000000x195, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_12 : Ref sig .tc := ⟨.hbm, 53, rfl⟩
abbrev main_v34 : Ref sig .tc := ⟨.hbm, 54, rfl⟩
abbrev main_v35 : Ref sig .tc := ⟨.hbm, 55, rfl⟩
abbrev main_cst_13 : Ref sig .tc := ⟨.hbm, 56, rfl⟩
abbrev main_v36 : Ref sig .tc := ⟨.hbm, 57, rfl⟩
abbrev main_v37 : Ref sig .tc := ⟨.hbm, 58, rfl⟩
abbrev main_cst_14 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_c : Ref sig .tc := ⟨.hbm, 79, rfl⟩
abbrev main_v56 : Ref sig .tc := ⟨.hbm, 80, rfl⟩
abbrev main_v57 : Ref sig .tc := ⟨.hbm, 81, rfl⟩
abbrev main_c_16 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_17 : Ref sig .tc := ⟨.hbm, 86, rfl⟩
abbrev main_v61 : Ref sig .tc := ⟨.hbm, 87, rfl⟩
abbrev main_v62 : Ref sig .tc := ⟨.hbm, 88, rfl⟩
abbrev main_c_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_19 : Ref sig .tc := ⟨.hbm, 93, rfl⟩
abbrev main_v66 : Ref sig .tc := ⟨.hbm, 94, rfl⟩
abbrev main_v67 : Ref sig .tc := ⟨.hbm, 95, rfl⟩
abbrev main_c_20 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]

class Facts₀ : Prop where
  bcast_S_S1000000x3 : S_.BroadcastsInDim S1000000x3 (![] : Fin 0 → Fin S1000000x3.rank)
  bcast_S1000000x3_S1000000x3x1_0_1 : S1000000x3.BroadcastsInDim S1000000x3x1 (![0, 1] : Fin 2 → Fin S1000000x3x1.rank)
  concatenates_S1000000x3x1_S1000000x3x1_S1000000x3x1_S1000000x3x1_S1000000x3x4_d2 : Shape.Concatenates [S1000000x3x1, S1000000x3x1, S1000000x3x1, S1000000x3x1] S1000000x3x4 2
  bcast_S4_S1x1x4_2 : S4.BroadcastsInDim S1x1x4 (![2] : Fin 1 → Fin S1x1x4.rank)
  bcast_S1000000x3x1_S1000000x3x4_0_1_2 : S1000000x3x1.BroadcastsInDim S1000000x3x4 (![0, 1, 2] : Fin 3 → Fin S1000000x3x4.rank)
  bcast_S1x1x4_S1000000x3x4_0_1_2 : S1x1x4.BroadcastsInDim S1000000x3x4 (![0, 1, 2] : Fin 3 → Fin S1000000x3x4.rank)
  bcast_S1000000_S1000000x1x1_0 : S1000000.BroadcastsInDim S1000000x1x1 (![0] : Fin 1 → Fin S1000000x1x1.rank)
  bcast_S3_S1x3x1_1 : S3.BroadcastsInDim S1x3x1 (![1] : Fin 1 → Fin S1x3x1.rank)
  bcast_S_S1000000x3x64 : S_.BroadcastsInDim S1000000x3x64 (![] : Fin 0 → Fin S1000000x3x64.rank)
  bcast_S_S1000000x1x1 : S_.BroadcastsInDim S1000000x1x1 (![] : Fin 0 → Fin S1000000x1x1.rank)
  bcast_S_S1x3x1 : S_.BroadcastsInDim S1x3x1 (![] : Fin 0 → Fin S1x3x1.rank)
  bcast_S_S1000000x3x4 : S_.BroadcastsInDim S1000000x3x4 (![] : Fin 0 → Fin S1000000x3x4.rank)
  bcast_S1000000x1x1_S1000000x3x4_0_1_2 : S1000000x1x1.BroadcastsInDim S1000000x3x4 (![0, 1, 2] : Fin 3 → Fin S1000000x3x4.rank)
  bcast_S1x3x1_S1000000x3x4_0_1_2 : S1x3x1.BroadcastsInDim S1000000x3x4 (![0, 1, 2] : Fin 3 → Fin S1000000x3x4.rank)
  bcast_S1000000x3x4_S1000000x3x4x1_0_1_2 : S1000000x3x4.BroadcastsInDim S1000000x3x4x1 (![0, 1, 2] : Fin 3 → Fin S1000000x3x4x1.rank)
  concatenates_S1000000x3x4x1_S1000000x3x4x1_S1000000x3x4x1_S1000000x3x4x3_d3 : Shape.Concatenates [S1000000x3x4x1, S1000000x3x4x1, S1000000x3x4x1] S1000000x3x4x3 3
  concatenates_S1000000x3x1_S1000000x3x64_S1000000x3x65_d2 : Shape.Concatenates [S1000000x3x1, S1000000x3x64] S1000000x3x65 2
  shapeCasts_S1000000x3x65_S1000000x195 : S1000000x3x65.ShapeCasts S1000000x195
  scatter_S1000000x3x64_S1000000x3x4x3_S1000000x3x4_n_012_012_3_wf : ScatterDims.WF S1000000x3x64 S1000000x3x4x3 S1000000x3x4 [] [0, 1, 2] [0, 1, 2] 3

variable [Facts₀]

def scatter_S1000000x3x64_S1000000x3x4x3_S1000000x3x4_n_012_012_3 : ScatterDims S1000000x3x64 S1000000x3x4x3 S1000000x3x4 where
  updateWindowDims := []
  insertedWindowDims := [0, 1, 2]
  scatterDimsToOperandDims := [0, 1, 2]
  indexVectorDim := 3
  wf := scatter_S1000000x3x64_S1000000x3x4x3_S1000000x3x4_n_012_012_3_wf

class Facts : Prop extends Facts₀ where

variable [Facts]
-- ==== Proof.Spec.lean ====
/-
  Cubic B-spline features of a point cloud: the common value of the two programs, element by element.

  For one input coordinate `y` (an extended real): the knot-space coordinate `knot y = min 61 (max 0 ((y + 1) · 30.5))`
  always lies in `[0, 61]`; its integer part `cell y` (a 32-bit word holding `⌊knot y⌋`) is the first of the four
  consecutive knots the coordinate touches, `frac y = knot y − cell y` the local coordinate, and `w0 … w3` the four cubic
  B-spline weights of `frac y`. The feature row of `y` has 64 bins: bin `k` holds weight `j` when `k` is the knot
  `cell y + j` and `0` when it is none of the four (the four knots are distinct; a knot past the last bin is simply absent).
  An output row lays, for each of the three input coordinates in turn, the coordinate itself followed by its 64 bins:
  column `65 d` is the coordinate `d`, column `65 d + 1 + k` its bin `k`.
-/
import Idealize.ShloMosaic.PureOps.Ideal
import Idealize.ShloMosaic.Lib.ValueIdx

noncomputable section

namespace Cert.BSpline

open Idealize.ShloMosaic Idealize.ShloMosaic.ValueIdx

/-! ## The constants the two programs spell, as the reals they denote -/

theorem ofBits_zero : Ideal.ofBits .f32 0x00000000#32 = 0 := by
  simp [Ideal.ofBits, Ideal.ieee]

theorem ofBits_61 : Ideal.ofBits .f32 0x42740000#32 = ((61 : ℝ) : EReal) := by
  simp [Ideal.ofBits, Ideal.ieee, -EReal.coe_mul]; norm_num

/-! ## One coordinate -/

/-- The knot-space coordinate, clamped: `min 61 (max 0 ((y − (−1)) · 30.5))`. -/
def knot (y : EReal) : EReal :=
  min (Ideal.ofBits .f32 0x42740000#32)
    (max (Ideal.ofBits .f32 0x00000000#32) ((y - Ideal.ofBits .f32 0xBF800000#32) * Ideal.ofBits .f32 0x41F40000#32))

/-- The clamped coordinate is a real number between 0 and 61, whatever `y` is. -/
theorem knot_mem (y : EReal) : ∃ r : ℝ, knot y = (r : EReal) ∧ 0 ≤ r ∧ r ≤ 61 := by
  unfold knot
  rw [ofBits_61, ofBits_zero]
  generalize (y - Ideal.ofBits .f32 0xBF800000#32) * Ideal.ofBits .f32 0x41F40000#32 = z
  induction z using EReal.rec with
  | bot =>
    refine ⟨0, ?_, le_refl _, by norm_num⟩
    rw [max_eq_left bot_le, min_eq_right]
    · rfl
    · exact_mod_cast (by norm_num : (0 : ℝ) ≤ 61)
  | top =>
    refine ⟨61, ?_, by norm_num, le_refl _⟩
    rw [max_eq_right le_top, min_eq_left le_top]
  | coe z =>
    refine ⟨min 61 (max 0 z), ?_, le_min (by norm_num) (le_max_left _ _), min_le_left _ _⟩
    rw [EReal.coe_strictMono.monotone.map_min, EReal.coe_strictMono.monotone.map_max]
    rfl

/-- The first knot the coordinate touches, as the 32-bit word the programs compute: `⌊knot y⌋` converted. -/
def cell (y : EReal) : BitVec 32 := Ideal.fptosi 32 (Ideal.liftRound Int.floor (knot y))

/-- That word, read signed, is between 0 and 61. -/
theorem cell_toInt (y : EReal) : 0 ≤ (cell y).toInt ∧ (cell y).toInt ≤ 61 := by
  obtain ⟨r, hr, h0, h1⟩ := knot_mem y
  unfold cell
  rw [hr, Ideal.liftRound_coe]
  have hf0 : (0 : ℤ) ≤ ⌊r⌋ := Int.floor_nonneg.2 h0
  have hf1 : ⌊r⌋ ≤ 61 := by
    have : ⌊r⌋ ≤ ⌊(61 : ℝ)⌋ := Int.floor_le_floor h1
    simpa using this
  have hfl : ⌊((⌊r⌋ : ℤ) : ℝ)⌋ = ⌊r⌋ := Int.floor_intCast _
  have hnn : (0 : ℝ) ≤ ((⌊r⌋ : ℤ) : ℝ) := by exact_mod_cast hf0
  unfold Ideal.fptosi
  rw [Ideal.toIntClamped_coe, if_pos hnn, hfl]
  have e : max (-((2 ^ (32 - 1) : Nat) : ℤ)) (min (((2 ^ (32 - 1) : Nat) : ℤ) - 1) ⌊r⌋) = ⌊r⌋ := by
    have : ((2 ^ (32 - 1) : Nat) : ℤ) = 2147483648 := by norm_num
    rw [this]; omega
  rw [e, BitVec.toInt_ofInt]
  have : ⌊r⌋.bmod (2 ^ 32) = ⌊r⌋ := by
    apply Int.bmod_eq_of_le <;> omega
  rw [this]
  exact ⟨hf0, hf1⟩

/-- The local coordinate inside the cell. -/
def frac (y : EReal) : EReal := knot y - (((cell y).toInt : ℝ) : EReal)

/-- The four cubic B-spline weights of the local coordinate `u`: `(1−u)³/6`, `(3u³ − 6u² + 4)/6`,
    `(−3u³ + 3u² + 3u + 1)/6`, `u³/6`, spelt with the operations and the grouping the programs use. -/
def w0 (y : EReal) : EReal :=
  Ideal.div ((Ideal.ofBits .f32 0x3F800000#32 - frac y)
      * ((Ideal.ofBits .f32 0x3F800000#32 - frac y) * (Ideal.ofBits .f32 0x3F800000#32 - frac y)))
    (Ideal.ofBits .f32 0x40C00000#32)
def w1 (y : EReal) : EReal :=
  Ideal.div (Ideal.ofBits .f32 0x40400000#32 * (frac y * frac y * frac y)
      - Ideal.ofBits .f32 0x40C00000#32 * (frac y * frac y) + Ideal.ofBits .f32 0x40800000#32)
    (Ideal.ofBits .f32 0x40C00000#32)
def w2 (y : EReal) : EReal :=
  Ideal.div (Ideal.ofBits .f32 0xC0400000#32 * (frac y * frac y * frac y)
      + Ideal.ofBits .f32 0x40400000#32 * (frac y * frac y) + Ideal.ofBits .f32 0x40400000#32 * frac y
      + Ideal.ofBits .f32 0x3F800000#32)
    (Ideal.ofBits .f32 0x40C00000#32)
def w3 (y : EReal) : EReal :=
  Ideal.div (frac y * frac y * frac y) (Ideal.ofBits .f32 0x40C00000#32)

/-- Bin `k` of the coordinate's feature row: the weight of the knot `k` is, `0` when it is none of the four. -/
def bin (y : EReal) (k : Nat) : EReal :=
  if BitVec.ofNat 32 k = cell y then w0 y
  else if BitVec.ofNat 32 k = cell y + 1#32 then w1 y
  else if BitVec.ofNat 32 k = cell y + 2#32 then w2 y
  else if BitVec.ofNat 32 k = cell y + 3#32 then w3 y
  else 0

/-! ## One row, and the array -/

/-- The output row of the three coordinates `xr`: column `65 d` is coordinate `d`, column `65 d + 1 + k` its bin `k`. -/
def row (xr : Fin 3 → EReal) (q : Fin 195) : EReal :=
  if q.val % 65 = 0 then xr ⟨q.val / 65, by omega⟩ else bin (xr ⟨q.val / 65, by omega⟩) (q.val % 65 - 1)

/-- The whole result: row `n` is the row of the three coordinates of point `n`. -/
def G (X : (⟨2, ![1000000, 3]⟩ : Shape).Idx → EReal) : (⟨2, ![1000000, 195]⟩ : Shape).Idx → EReal :=
  fun i => row (fun d => X (ix2 (i 0) d)) (i 1)

end Cert.BSpline

end
-- ==== Proof.MaskSum.lean ====
/-
  A sum of four weights, each multiplied by the 0/1 word of "k is the knot i + j" (j = 0 … 3), picks the one weight whose
  knot is k, and is 0 when k is none of the four. The four knots i, i + 1, i + 2, i + 3 are distinct 32-bit words, so at most
  one of the four tests holds; on the extended reals a · 1 = a, a · 0 = 0 (also for an infinite a) and 0 is neutral for +,
  so no finiteness is needed.
-/
import Idealize.ShloMosaic.PureOps.Ideal
import Idealize.ShloMosaic.Lib.ValueIdx

noncomputable section

namespace Cert.BSpline

open Idealize.ShloMosaic Idealize.ShloMosaic.ValueIdx

/-- The word of an equality test, widened to 32 bits and converted to a float, is 1 where the test holds and 0 elsewhere. -/
theorem maskWord (a b : BitVec 32) :
    FloatOps.sitofp (F := Ideal) .f32 ((IntOp.cmpi .eq a b).setWidth 32) = if a = b then (1 : EReal) else 0 := by
  by_cases h : a = b
  · subst h
    rw [if_pos rfl]
    have : IntOp.cmpi .eq a a = 1#1 := by simp [IntOp.cmpi]
    rw [this]
    show (((BitVec.setWidth 32 (1#1)).toInt : ℝ) : EReal) = 1
    have : (BitVec.setWidth 32 (1#1)).toInt = 1 := by decide
    rw [this]; norm_num
  · rw [if_neg h]
    have : IntOp.cmpi .eq a b = 0#1 := by
      have hb : (a == b) = false := by simpa using h
      simp [IntOp.cmpi, hb]
    rw [this]
    show (((BitVec.setWidth 32 (0#1)).toInt : ℝ) : EReal) = 0
    have : (BitVec.setWidth 32 (0#1)).toInt = 0 := by decide
    rw [this]; norm_num

/-- The masked sum over the four consecutive knots from `i` picks the weight of the knot `k` is. -/
theorem maskedSum (i k : BitVec 32) (a0 a1 a2 a3 : EReal) :
    a0 * (if k = i then (1 : EReal) else 0) + a1 * (if k = i + 1#32 then (1 : EReal) else 0)
        + a2 * (if k = i + 2#32 then (1 : EReal) else 0) + a3 * (if k = i + 3#32 then (1 : EReal) else 0)
      = if k = i then a0 else if k = i + 1#32 then a1 else if k = i + 2#32 then a2 else if k = i + 3#32 then a3 else 0 := by
  by_cases h0 : k = i
  · have h1 : ¬ k = i + 1#32 := by rw [h0]; bv_omega
    have h2 : ¬ k = i + 2#32 := by rw [h0]; bv_omega
    have h3 : ¬ k = i + 3#32 := by rw [h0]; bv_omega
    rw [if_pos h0, if_neg h1, if_neg h2, if_neg h3, if_pos h0]
    simp
  · by_cases h1 : k = i + 1#32
    · have h2 : ¬ k = i + 2#32 := by rw [h1]; bv_omega
      have h3 : ¬ k = i + 3#32 := by rw [h1]; bv_omega
      rw [if_neg h0, if_pos h1, if_neg h2, if_neg h3, if_neg h0, if_pos h1]
      simp
    · by_cases h2 : k = i + 2#32
      · have h3 : ¬ k = i + 3#32 := by rw [h2]; bv_omega
        rw [if_neg h0, if_neg h1, if_pos h2, if_neg h3, if_neg h0, if_neg h1, if_pos h2]
        simp
      · by_cases h3 : k = i + 3#32
        · rw [if_neg h0, if_neg h1, if_neg h2, if_pos h3, if_neg h0, if_neg h1, if_neg h2, if_pos h3]
          simp
        · rw [if_neg h0, if_neg h1, if_neg h2, if_neg h3, if_neg h0, if_neg h1, if_neg h2, if_neg h3]
          simp

end Cert.BSpline

end
-- ==== Proof.KernelRow.lean ====
/-
  One row of the kernel's output block, read off the body's stored value.

  The body stores ONE value: the concatenation, along the columns, of six pieces — for each of the three input columns
  d = 0, 1, 2 the column itself (one column wide) and then its 64 feature bins. Read at row p and column q this is: the
  input x(p, d) when q = 65 d; and, when q = 65 d + 1 + k, the masked sum w0·[k = c] + w1·[k = c + 1] + w2·[k = c + 2] + w3·[k = c + 3]
  of the four cubic weights of x(p, d) against the knot word c of x(p, d) — which is the bin k of x(p, d): the row of the specification.
  The weights and the knot word are pointwise functions of the block, the same operations as the specification's, so they
  agree with it by unfolding.
-/
import proofs.«161343_j72851235274859_1_alg».proof.Proof.Gen.KernelIdeal.Frame
import proofs.«161343_j72851235274859_1_alg».proof.Proof.Spec
import proofs.«161343_j72851235274859_1_alg».proof.Proof.MaskSum
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx Cert.BSpline

/-! ## The pointwise part: knot coordinate, knot word, local coordinate, the four weights -/

theorem knot_eq (x0 : Vec Ideal S2000x3 .f32) (i : S2000x3.Idx) : k0_pay2 x0 i = knot (x0 i) := rfl
theorem cell_eq (x0 : Vec Ideal S2000x3 .f32) (i : S2000x3.Idx) : k0_pay3 x0 i = cell (x0 i) := rfl
theorem frac_eq (x0 : Vec Ideal S2000x3 .f32) (i : S2000x3.Idx) : k0_pay4 x0 i = frac (x0 i) := rfl
theorem w0_eq (x0 : Vec Ideal S2000x3 .f32) (i : S2000x3.Idx) : k0_pay7 x0 i = w0 (x0 i) := rfl
theorem w1_eq (x0 : Vec Ideal S2000x3 .f32) (i : S2000x3.Idx) : k0_pay8 x0 i = w1 (x0 i) := rfl
theorem w2_eq (x0 : Vec Ideal S2000x3 .f32) (i : S2000x3.Idx) : k0_pay9 x0 i = w2 (x0 i) := rfl
theorem w3_eq (x0 : Vec Ideal S2000x3 .f32) (i : S2000x3.Idx) : k0_pay10 (k0_pay6 x0) i = w3 (x0 i) := rfl

/-! ## The layout operations at an index -/

/-- Column `d` of a three-column block, as a one-column block. -/
theorem slice_col {α : Type} (v : S2000x3.Idx → α) (d : Nat) (hd : d < 3) (h : S2000x3.Slices ![0, d] S2000x1) (p : Fin 2000) (z : Fin 1) :
    extractStridedSlice S2000x1 ![0, d] v h (ix2 p z) = v (ix2 p ⟨d, hd⟩) := by
  refine extractStridedSlice_apply _ v h _ _ (fun a => ?_)
  match a with
  | ⟨0, _⟩ => show p.val = 0 + p.val; omega
  | ⟨1, _⟩ => show d = d + z.val; have := z.isLt; omega

/-- A one-column block spread over 64 columns. -/
theorem bcast_col {α : Type} (v : S2000x1.Idx → α) (h : S2000x1.Broadcasts S2000x64) (p : Fin 2000) (k : Fin 64) :
    broadcastTo S2000x64 v h (ix2 p k) = v (ix2 p (0 : Fin 1)) := by
  refine broadcastTo_apply v h _ _ (fun a => ?_)
  match a with
  | ⟨0, _⟩ => show p.val = if (2000 : Nat) = 1 then 0 else p.val; rw [if_neg (by decide)]
  | ⟨1, _⟩ => show (0 : Nat) = if (1 : Nat) = 1 then 0 else k.val; rw [if_pos rfl]

/-- The float mask of "the column number is the word of this row". -/
theorem mask_apply (I1 : IVec S2000x1 32) (hb : S2000x1.Broadcasts S2000x64) (hi : S2000x64.Iotas .tc 32 [1]) (hlt : 1 < 32)
    (p : Fin 2000) (k : Fin 64) :
    (sitofp .f32 (extui 32 (cmpi .eq (iota .tc S2000x64 32 [1] hi) (broadcastTo S2000x64 I1 hb)) hlt) : FVec Ideal S2000x64 .f32) (ix2 p k)
      = if BitVec.ofNat 32 k.val = I1 (ix2 p (0 : Fin 1)) then (1 : EReal) else 0 := by
  rw [sitofp_apply, extui_apply]
  show FloatOps.sitofp (F := Ideal) .f32 ((IntOp.cmpi .eq (iota .tc S2000x64 32 [1] hi (ix2 p k)) (broadcastTo S2000x64 I1 hb (ix2 p k))).setWidth 32) = _
  rw [iota_single_apply, bcast_col, maskWord]

/-- The four-term masked sum of one input column's weights, at row `p` and bin `k`. -/
theorem feat_apply (I1 : IVec S2000x1 32) (A0 A1 A2 A3 : FVec Ideal S2000x1 .f32) (hb : S2000x1.Broadcasts S2000x64)
    (hi : S2000x64.Iotas .tc 32 [1]) (hlt : 1 < 32) (p : Fin 2000) (k : Fin 64) :
    addf (addf (addf
        (mulf (broadcastTo S2000x64 A0 hb)
          (sitofp .f32 (extui 32 (cmpi .eq (iota .tc S2000x64 32 [1] hi) (broadcastTo S2000x64 I1 hb)) hlt)))
        (mulf (broadcastTo S2000x64 A1 hb)
          (sitofp .f32 (extui 32 (cmpi .eq (iota .tc S2000x64 32 [1] hi) (broadcastTo S2000x64 (addi I1 (broadcast S2000x1 1#32)) hb)) hlt))))
        (mulf (broadcastTo S2000x64 A2 hb)
          (sitofp .f32 (extui 32 (cmpi .eq (iota .tc S2000x64 32 [1] hi) (broadcastTo S2000x64 (addi I1 (broadcast S2000x1 2#32)) hb)) hlt))))
        (mulf (broadcastTo S2000x64 A3 hb)
          (sitofp .f32 (extui 32 (cmpi .eq (iota .tc S2000x64 32 [1] hi) (broadcastTo S2000x64 (addi I1 (broadcast S2000x1 3#32)) hb)) hlt)))
      (ix2 p k)
      = if BitVec.ofNat 32 k.val = I1 (ix2 p (0 : Fin 1)) then A0 (ix2 p (0 : Fin 1))
        else if BitVec.ofNat 32 k.val = I1 (ix2 p (0 : Fin 1)) + 1#32 then A1 (ix2 p (0 : Fin 1))
        else if BitVec.ofNat 32 k.val = I1 (ix2 p (0 : Fin 1)) + 2#32 then A2 (ix2 p (0 : Fin 1))
        else if BitVec.ofNat 32 k.val = I1 (ix2 p (0 : Fin 1)) + 3#32 then A3 (ix2 p (0 : Fin 1))
        else 0 := by
  simp only [addf_apply, mulf_apply]
  rw [mask_apply, mask_apply, mask_apply, mask_apply, bcast_col, bcast_col, bcast_col, bcast_col]
  exact maskedSum _ _ _ _ _ _

/-! ## The three feature pieces are the bins of their input column -/

/-- The bins of input column 0 (the second piece). -/
theorem feat0_eq (x0 : Vec Ideal S2000x3 .f32) (p : Fin 2000) (k : Fin 64) :
    k0_pay12 (k0_pay3 x0) (k0_pay6 x0) (k0_pay7 x0) (k0_pay8 x0) (k0_pay9 x0) (ix2 p k) = bin (x0 (ix2 p (0 : Fin 3))) k.val := by
  unfold k0_pay12
  dsimp only
  rw [feat_apply]
  rw [slice_col _ 0 (by omega), slice_col _ 0 (by omega), slice_col _ 0 (by omega), slice_col _ 0 (by omega), slice_col _ 0 (by omega),
    cell_eq, w0_eq, w1_eq, w2_eq, w3_eq]
  rfl

/-- The bins of input column 1 (the fourth piece). -/
theorem feat1_eq (x0 : Vec Ideal S2000x3 .f32) (p : Fin 2000) (k : Fin 64) :
    k0_pay21 (iota .tc S2000x64 32 [1] iota_S2000x64_d1_w32) (k0_pay14 (k0_pay3 x0)) (k0_pay15 (k0_pay7 x0)) (k0_pay16 (k0_pay8 x0))
        (k0_pay17 (k0_pay9 x0)) (k0_pay18 (k0_pay6 x0)) (k0_pay19 (F := Ideal) (k0_pay3 x0)) (k0_pay20 (k0_pay3 x0)) (ix2 p k)
      = bin (x0 (ix2 p (1 : Fin 3))) k.val := by
  unfold k0_pay21 k0_pay19 k0_pay20 k0_pay14 k0_pay15 k0_pay16 k0_pay17 k0_pay18
  dsimp only
  rw [feat_apply]
  rw [slice_col _ 1 (by omega), slice_col _ 1 (by omega), slice_col _ 1 (by omega), slice_col _ 1 (by omega), slice_col _ 1 (by omega),
    cell_eq, w0_eq, w1_eq, w2_eq, w3_eq]
  rfl

/-- The bins of input column 2 (the sixth piece, the sum the store's own payload ends with). -/
def feat2 (x0 : Vec Ideal S2000x3 .f32) : FVec Ideal S2000x64 .f32 :=
  addf (addf (addf (mulf (k0_pay31 (k0_pay7 x0)) (k0_pay27 (F := Ideal) (k0_pay3 x0) (iota .tc S2000x64 32 [1] iota_S2000x64_d1_w32)))
      (mulf (broadcastTo S2000x64 (k0_pay24 (k0_pay8 x0)) broadcasts_S2000x1_S2000x64) (k0_pay28 (F := Ideal) (k0_pay3 x0) (iota .tc S2000x64 32 [1] iota_S2000x64_d1_w32))))
      (mulf (broadcastTo S2000x64 (k0_pay25 (k0_pay9 x0)) broadcasts_S2000x1_S2000x64) (k0_pay29 (F := Ideal) (k0_pay3 x0) (iota .tc S2000x64 32 [1] iota_S2000x64_d1_w32))))
      (mulf (broadcastTo S2000x64 (k0_pay26 (k0_pay10 (k0_pay6 x0))) broadcasts_S2000x1_S2000x64) (k0_pay30 (F := Ideal) (k0_pay3 x0) (iota .tc S2000x64 32 [1] iota_S2000x64_d1_w32)))

theorem feat2_eq (x0 : Vec Ideal S2000x3 .f32) (p : Fin 2000) (k : Fin 64) :
    feat2 x0 (ix2 p k) = bin (x0 (ix2 p (2 : Fin 3))) k.val := by
  unfold feat2 k0_pay31 k0_pay27 k0_pay28 k0_pay29 k0_pay30 k0_pay23 k0_pay24 k0_pay25 k0_pay26
  dsimp only
  rw [feat_apply]
  rw [slice_col _ 2 (by omega), slice_col _ 2 (by omega), slice_col _ 2 (by omega), slice_col _ 2 (by omega), slice_col _ 2 (by omega),
    cell_eq, w0_eq, w1_eq, w2_eq, w3_eq]
  rfl

/-! ## The concatenation of the six pieces at a column -/

/-- Column `q` of the six pieces laid side by side (1, 64, 1, 64, 1, 64 columns): which piece it falls in, and where. -/
theorem concat6_apply {α : Type} (h : Shape.Concatenates [S2000x1, S2000x64, S2000x1, S2000x64, S2000x1, S2000x64] S2000x195 1)
    (a0 : S2000x1.Idx → α) (f0 : S2000x64.Idx → α) (a1 : S2000x1.Idx → α) (f1 : S2000x64.Idx → α) (a2 : S2000x1.Idx → α) (f2 : S2000x64.Idx → α)
    (p : Fin 2000) (q : Fin 195) :
    concatenate S2000x195 1 [⟨S2000x1, a0⟩, ⟨S2000x64, f0⟩, ⟨S2000x1, a1⟩, ⟨S2000x64, f1⟩, ⟨S2000x1, a2⟩, ⟨S2000x64, f2⟩] h (ix2 p q)
      = if q.val = 0 then a0 (ix2 p (0 : Fin 1))
        else if q.val < 65 then f0 (ix2 p ⟨(q.val - 1) % 64, Nat.mod_lt _ (by norm_num)⟩)
        else if q.val = 65 then a1 (ix2 p (0 : Fin 1))
        else if q.val < 130 then f1 (ix2 p ⟨(q.val - 66) % 64, Nat.mod_lt _ (by norm_num)⟩)
        else if q.val = 130 then a2 (ix2 p (0 : Fin 1))
        else f2 (ix2 p ⟨(q.val - 131) % 64, Nat.mod_lt _ (by norm_num)⟩) := by
  have hq : q.val < 195 := q.isLt
  have key := concatenate_apply_piece (α := α) (t := S2000x195) 1
    [⟨S2000x1, a0⟩, ⟨S2000x64, f0⟩, ⟨S2000x1, a1⟩, ⟨S2000x64, f1⟩, ⟨S2000x1, a2⟩, ⟨S2000x64, f2⟩] h (ix2 p q)
  by_cases c0 : q.val = 0
  · rw [if_pos c0]
    refine key 0 (by show 0 < 6; omega) S2000x1 a0 rfl rfl 0 rfl (ix2 p (0 : Fin 1)) (fun b hb => ?_) ?_
    · match b with
      | ⟨0, _⟩ => rfl
      | ⟨1, _⟩ => exact absurd rfl hb
    · show 0 + 0 = q.val; omega
  rw [if_neg c0]
  by_cases c1 : q.val < 65
  · rw [if_pos c1]
    refine key 1 (by show 1 < 6; omega) S2000x64 f0 rfl rfl 1 rfl (ix2 p ⟨(q.val - 1) % 64, Nat.mod_lt _ (by norm_num)⟩) (fun b hb => ?_) ?_
    · match b with
      | ⟨0, _⟩ => rfl
      | ⟨1, _⟩ => exact absurd rfl hb
    · show 1 + (q.val - 1) % 64 = q.val; omega
  rw [if_neg c1]
  by_cases c2 : q.val = 65
  · rw [if_pos c2]
    refine key 2 (by show 2 < 6; omega) S2000x1 a1 rfl rfl 65 rfl (ix2 p (0 : Fin 1)) (fun b hb => ?_) ?_
    · match b with
      | ⟨0, _⟩ => rfl
      | ⟨1, _⟩ => exact absurd rfl hb
    · show 65 + 0 = q.val; omega
  rw [if_neg c2]
  by_cases c3 : q.val < 130
  · rw [if_pos c3]
    refine key 3 (by show 3 < 6; omega) S2000x64 f1 rfl rfl 66 rfl (ix2 p ⟨(q.val - 66) % 64, Nat.mod_lt _ (by norm_num)⟩) (fun b hb => ?_) ?_
    · match b with
      | ⟨0, _⟩ => rfl
      | ⟨1, _⟩ => exact absurd rfl hb
    · show 66 + (q.val - 66) % 64 = q.val; omega
  rw [if_neg c3]
  by_cases c4 : q.val = 130
  · rw [if_pos c4]
    refine key 4 (by show 4 < 6; omega) S2000x1 a2 rfl rfl 130 rfl (ix2 p (0 : Fin 1)) (fun b hb => ?_) ?_
    · match b with
      | ⟨0, _⟩ => rfl
      | ⟨1, _⟩ => exact absurd rfl hb
    · show 130 + 0 = q.val; omega
  rw [if_neg c4]
  refine key 5 (by show 5 < 6; omega) S2000x64 f2 rfl rfl 131 rfl (ix2 p ⟨(q.val - 131) % 64, Nat.mod_lt _ (by norm_num)⟩) (fun b hb => ?_) ?_
  · match b with
    | ⟨0, _⟩ => rfl
    | ⟨1, _⟩ => exact absurd rfl hb
  · show 131 + (q.val - 131) % 64 = q.val; omega

/-! ## The row -/

theorem hz : (![0, 0] : Fin 2 → Nat) = fun _ => 0 := funext fun a => by fin_cases a <;> rfl

/-- What the body leaves in the output block, at row `p` and column `q`: the specification's row of the block's row `p`. -/
theorem row_eq (x0 : Vec Ideal S2000x3 .f32) (p : Fin 2000) (q : Fin 195) :
    out0_1 x0 (ix2 p q) = row (fun d => x0 (ix2 p d)) q := by
  unfold out0_1
  rw [View.canon_unit_zero hz]
  simp only [View.ld_unit_zero (S := S2000x3) hz]
  show concatenate S2000x195 1 [⟨S2000x1, k0_pay11 x0⟩, ⟨S2000x64, k0_pay12 (k0_pay3 x0) (k0_pay6 x0) (k0_pay7 x0) (k0_pay8 x0) (k0_pay9 x0)⟩,
    ⟨S2000x1, k0_pay13 x0⟩, ⟨S2000x64, k0_pay21 (iota .tc S2000x64 32 [1] iota_S2000x64_d1_w32) (k0_pay14 (k0_pay3 x0)) (k0_pay15 (k0_pay7 x0)) (k0_pay16 (k0_pay8 x0))
        (k0_pay17 (k0_pay9 x0)) (k0_pay18 (k0_pay6 x0)) (k0_pay19 (F := Ideal) (k0_pay3 x0)) (k0_pay20 (k0_pay3 x0))⟩,
    ⟨S2000x1, k0_pay22 x0⟩, ⟨S2000x64, feat2 x0⟩] concatenates_S2000x1_S2000x64_S2000x1_S2000x64_S2000x1_S2000x64_S2000x195_d1 (ix2 p q) = _
  rw [concat6_apply]
  have hq : q.val < 195 := q.isLt
  unfold row
  by_cases c0 : q.val = 0
  · rw [if_pos c0, if_pos (by omega)]
    show extractStridedSlice S2000x1 ![0, 0] x0 slices_S2000x3_o0_0_S2000x1 (ix2 p (0 : Fin 1)) = _
    rw [slice_col _ 0 (by omega)]
    have e : (⟨q.val / 65, by omega⟩ : Fin 3) = (0 : Fin 3) := Fin.ext (by show q.val / 65 = 0; omega)
    rw [e]
    rfl
  rw [if_neg c0]
  by_cases c1 : q.val < 65
  · rw [if_pos c1, if_neg (by omega), feat0_eq]
    have e : (⟨q.val / 65, by omega⟩ : Fin 3) = (0 : Fin 3) := Fin.ext (by show q.val / 65 = 0; omega)
    rw [e]
    congr 1; show (q.val - 1) % 64 = q.val % 65 - 1; omega
  rw [if_neg c1]
  by_cases c2 : q.val = 65
  · rw [if_pos c2, if_pos (by omega)]
    show extractStridedSlice S2000x1 ![0, 1] x0 slices_S2000x3_o0_1_S2000x1 (ix2 p (0 : Fin 1)) = _
    rw [slice_col _ 1 (by omega)]
    have e : (⟨q.val / 65, by omega⟩ : Fin 3) = (1 : Fin 3) := Fin.ext (by show q.val / 65 = 1; omega)
    rw [e]
    rfl
  rw [if_neg c2]
  by_cases c3 : q.val < 130
  · rw [if_pos c3, if_neg (by omega), feat1_eq]
    have e : (⟨q.val / 65, by omega⟩ : Fin 3) = (1 : Fin 3) := Fin.ext (by show q.val / 65 = 1; omega)
    rw [e]
    congr 1; show (q.val - 66) % 64 = q.val % 65 - 1; omega
  rw [if_neg c3]
  by_cases c4 : q.val = 130
  · rw [if_pos c4, if_pos (by omega)]
    show extractStridedSlice S2000x1 ![0, 2] x0 slices_S2000x3_o0_2_S2000x1 (ix2 p (0 : Fin 1)) = _
    rw [slice_col _ 2 (by omega)]
    have e : (⟨q.val / 65, by omega⟩ : Fin 3) = (2 : Fin 3) := Fin.ext (by show q.val / 65 = 2; omega)
    rw [e]
    rfl
  rw [if_neg c4, if_neg (by omega), feat2_eq]
  have e : (⟨q.val / 65, by omega⟩ : Fin 3) = (2 : Fin 3) := Fin.ext (by show q.val / 65 = 2; omega)
  rw [e]
  congr 1; show (q.val - 131) % 64 = q.val % 65 - 1; omega

end Cert.KernelIdeal.Row

end
-- ==== Proof.KernelValue.lean ====
/-
  The kernel's result array, whole: after the run it holds `G` of the argument array.

  Grid point `t` stages rows 2000 t … 2000 t + 1999 of the argument (all three columns) and writes back the same rows of the
  result (all 195 columns). What it writes at row `p` of its block is the specification's row of the block's row `p`
  (the row lemma), and that block row IS row 2000 t + p of the argument, so the written block is the block of `G`.
  The 500 blocks cover every row of the result (row `r` lies in block `r / 2000`), hence the array ends at `G`.
-/
import proofs.«161343_j72851235274859_1_alg».proof.Proof.Gen.KernelIdeal.Value
import proofs.«161343_j72851235274859_1_alg».proof.Proof.KernelRow

noncomputable section

namespace Cert.KernelIdeal.Whole

open Cert.KernelIdeal Cert.KernelIdeal.Gen Idealize.ShloMosaic Idealize.ShloMosaic.TcCoe Idealize.SL.Sem
open Idealize.ShloMosaic.ValueIdx Cert.BSpline
open Idealize.ShloMosaic.Pipeline (Dat)

variable (m : (ℓ : Loc nD τ sig) → Buf (Elt Ideal) ℓ) (ρ : Dev nD → PrngReg)

/-- The two windows' block indices at grid point `t`: row block `t`, column block 0 (decided over the 500 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What grid point `t` writes back is block `t` of `G` of the argument array. -/
theorem flushed_eq (c : Dev nD) (t : Fin cfg0.N) :
    (dats m 0 c).flushed 1 t = ((cfg0.win 1).blk t).view.read (Elt Ideal) (G (V m c main_arg0)) := by
  rw [Value.flushed1]
  obtain ⟨e00, e01, e10, e11⟩ := idx_facts t
  have key : ∀ (p : Fin 2000) (q : Fin 195),
      out0_1 (iblk m c 0 t) (ix2 p q) = G (V m c main_arg0) (((cfg0.win 1).blk t).view.emb (ix2 p q)) := by
    intro p q
    refine (Row.row_eq (iblk m c 0 t) p q).trans ?_
    show row (fun d => iblk m c 0 t (ix2 p d)) q
      = row (fun d => V m c main_arg0 (ix2 ((((cfg0.win 1).blk t).view.emb (ix2 p q)) 0) d)) ((((cfg0.win 1).blk t).view.emb (ix2 p q)) 1)
    have hq : (((cfg0.win 1).blk t).view.emb (ix2 p q)) 1 = q :=
      Fin.ext (by show win0_1.index t (1 : Fin 2) * 195 + 1 * q.val = q.val; rw [e11]; omega)
    have hrow : (fun d : Fin 3 => iblk m c 0 t (ix2 p d))
        = (fun d : Fin 3 => V m c main_arg0 (ix2 ((((cfg0.win 1).blk t).view.emb (ix2 p q)) 0) d)) := by
      funext d
      show V m c main_arg0 (((cfg0.win 0).blk t).view.emb (ix2 p d)) = _
      congr 1
      funext a; apply Fin.ext
      match a with
      | ⟨0, _⟩ => show win0_0.index t (0 : Fin 2) * 2000 + 1 * p.val = win0_1.index t (0 : Fin 2) * 2000 + 1 * p.val; rw [e00, e10]
      | ⟨1, _⟩ => show win0_0.index t (1 : Fin 2) * 3 + 1 * d.val = d.val; rw [e01]; omega
    rw [hrow, hq]
  funext j
  obtain ⟨p, q, rfl⟩ : ∃ (p : Fin 2000) (q : Fin 195), j = ix2 p q := ⟨j 0, j 1, eq_ix2 j⟩
  exact key p q

/-- An index of the result is in point `t`'s block iff each coordinate is in the block's range on its axis. -/
theorem mem_blk (t : Fin cfg0.N) (i : S1000000x195.Idx) :
    i ∈ ((cfg0.win 1).blk t).view.set ↔ ∀ a : Fin 2, win0_1.index t a * S2000x195.size a ≤ (i a).val ∧ (i a).val < win0_1.index t a * S2000x195.size a + S2000x195.size a := by
  show i ∈ ((View.whole main_v0).slice (win0_1.rect t)).set ↔ _
  rw [View.set_slice_whole, Rect.mem_set_unit]
  exact Iff.rfl

/-- Every index of the result lies in some point's block: row `r` in block `r / 2000`. -/
theorem cover (i : S1000000x195.Idx) :
    ∃ t : Fin cfg0.N, (cfg0.win 1).flush t = true ∧ i ∈ ((cfg0.win 1).blk t).view.set := by
  have h0 : (i 0).val < 1000000 := (i 0).isLt
  have h1 : (i 1).val < 195 := (i 1).isLt
  have ht : (i 0).val / 2000 < 500 := by omega
  refine ⟨⟨(i 0).val / 2000, ht⟩, flush0_1 _, ?_⟩
  rw [mem_blk]
  obtain ⟨-, -, e10, e11⟩ := idx_facts ⟨(i 0).val / 2000, ht⟩
  intro a
  match a with
  | ⟨0, _⟩ =>
    show win0_1.index ⟨(i 0).val / 2000, ht⟩ (0 : Fin 2) * 2000 ≤ (i 0).val
      ∧ (i 0).val < win0_1.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win0_1.index ⟨(i 0).val / 2000, ht⟩ (1 : Fin 2) * 195 ≤ (i 1).val
      ∧ (i 1).val < win0_1.index ⟨(i 0).val / 2000, ht⟩ (1 : Fin 2) * 195 + 195
    rw [e11]; omega

/-- The result array after the run is `G` of the argument array as launched. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The run, with the result array named: every weakly fair execution ends with the result at `G` of the argument, the
    argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.LibNary3.lean ====
/-
  A host operation over a LITERAL family of three references (a concatenation of three operands): what its result
  buffer holds, with each operand's contents read AT ITS OWN REFERENCE — `Fin.cons (F ↑x) (Fin.cons (F ↑a) (Fin.cons (F ↑b) _))`
  in place of `fun k => F ↑(![x, a, b] k)`. Under the binder the reference `![x, a, b] k` is no literal, so no result
  lemma rewrites the operands' contents there; in this form a run's fold goes on rewriting them. The library states the
  same for a family of four.
-/
import Idealize.ShloMosaic.Lib.StableHlo.Run

namespace Idealize.ShloMosaic.StableHlo

variable {τ : Topo} {sig : RefSig} {Val : EltTy → Type}
variable {x a b y : Ref sig .tc}

/-- The result of an operation over three literal references, the operands' contents each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for the simplifier. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterPoint.lean ====
/-
  Two facts about the row-major scatter fold that do not depend on the scatter's body.

  `scatter_apply_of_forall_ne`: an element of the operand that NO update lands on (no update's result index is that
  element) keeps the operand's value, for any body and any shapes. `foldl_proj_eq_of_keep` is the fold fact behind it
  in the abstract (a state, a projection of it, steps that all leave the projection alone).

  `pointScatter_resultIdx_eq_some_iff` reads the result index of a POINT scatter into a rank-3 operand (operand
  [N, D, K]; scatter indices [N', D', J, 3] with the index vector on the last axis; updates [N', D', J]; no window
  axes, all three operand axes inserted, the index vector's components going to the operand axes 0, 1, 2 in order) off
  the index words: update (n, e, j) lands on element k exactly when its three index words, read signed, are k's three
  coordinates (and it is dropped when they name no element of the operand).
-/
import Idealize.ShloMosaic.PureOps.ShapeOps
import Idealize.ShloMosaic.Lib.ValueIdx

namespace Idealize.ShloMosaic.ScatterFold

open Idealize.ShloMosaic Idealize.ShloMosaic.ValueIdx

/-- A left fold all of whose steps LEAVE a projection of the state alone leaves it alone. -/
theorem foldl_proj_eq_of_keep {κ β α : Type} (step : β → κ → β) (π : β → α) (l : List κ)
    (hkeep : ∀ k ∈ l, ∀ r, π (step r k) = π r) (x : β) : π (l.foldl step x) = π x := by
  induction l generalizing x with
  | nil => rfl
  | cons k l ih =>
    rw [List.foldl_cons, ih (fun k' hk' => hkeep k' (List.mem_cons_of_mem _ hk'))]
    exact hkeep k List.mem_cons_self x

/-- A scatter read at an element no update lands on: the operand's value there, whatever the body. Each step of the
    fold either drops its update (no result index) or rewrites the element at a result index other than `i'`. -/
theorem scatter_apply_of_forall_ne {s si u : Shape} {α : Type} {w : Nat} (d : ScatterDims s si u) (f : α → α → α)
    (x : s.Idx → α) (idx : IVec si w) (upd : u.Idx → α) (i' : s.Idx)
    (hno : ∀ j : u.Idx, d.resultIdx? j idx ≠ some i') : Host.scatter d f x idx upd i' = x i' := by
  unfold Host.scatter
  refine foldl_proj_eq_of_keep _ (fun r => r i') _ ?_ x
  intro n _ r
  show (match d.resultIdx? (u.rowMajor.symm n) idx with
    | some i => fun i'' => if i'' = i then f (r i) (upd (u.rowMajor.symm n)) else r i''
    | none => r) i' = r i'
  cases hr : d.resultIdx? (u.rowMajor.symm n) idx with
  | none => rfl
  | some i =>
    show (if i' = i then f (r i) (upd (u.rowMajor.symm n)) else r i') = r i'
    rw [if_neg]
    intro h
    exact hno _ (by rw [hr, h])

/-! ## The point scatter into a rank-3 operand: one index vector of three words per update, no window -/

section PointScatter

/-- Entries of equal lists at equal positions are equal. -/
theorem getElem_eq_of_list_eq {β : Type} {l l' : List β} (h : l = l') {k k' : Nat} (hkk : k = k') (hk : k < l.length)
    (hk' : k' < l'.length) : l[k] = l'[k'] := by
  subst h; subst hkk; rfl

variable {N D K N' D' J w : Nat} (d : ScatterDims ⟨3, ![N, D, K]⟩ ⟨4, ![N', D', J, 3]⟩ ⟨3, ![N', D', J]⟩)
  (huw : d.updateWindowDims = []) (hiw : d.insertedWindowDims = [0, 1, 2]) (hsd : d.scatterDimsToOperandDims = [0, 1, 2])
  (hiv : d.indexVectorDim = 3)

include huw hsd hiv in
/-- The start on each operand axis `a` is the update's index word number `a`, read signed. -/
theorem pointScatter_start (idx : IVec ⟨4, ![N', D', J, 3]⟩ w) (jj : (⟨3, ![N', D', J]⟩ : Shape).Idx) (a : Fin 3) :
    d.start jj idx a = (idx (ix4 (jj 0) (jj 1) (jj 2) a)).toInt := by
  have hm : a ∈ d.scatterDimsToOperandDims := by
    rw [hsd]
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  have hus : d.uScatter = [0, 1, 2] := by
    show Shape.kept _ d.updateWindowDims = [0, 1, 2]
    rw [huw]; rfl
  have hsk : d.siKept = [0, 1, 2] := by
    show (List.finRange 4).filter (fun b => decide (b.val ≠ d.indexVectorDim)) = [0, 1, 2]
    rw [hiv]; rfl
  unfold ScatterDims.start
  rw [dif_pos hm]
  congr 2
  funext b
  match b with
  | ⟨0, _⟩ =>
    unfold ScatterDims.siIdx
    rw [dif_neg (by rw [hiv]; exact (by decide : (0 : Nat) ≠ 3))]
    unfold ScatterDims.siCoord
    apply Fin.ext
    simp only [Fin.val_cast]
    rw [getElem_eq_of_list_eq hus (k' := 0) (by rw [hsk]; rfl) _ (by simp)]
    rfl
  | ⟨1, _⟩ =>
    unfold ScatterDims.siIdx
    rw [dif_neg (by rw [hiv]; exact (by decide : (1 : Nat) ≠ 3))]
    unfold ScatterDims.siCoord
    apply Fin.ext
    simp only [Fin.val_cast]
    rw [getElem_eq_of_list_eq hus (k' := 1) (by rw [hsk]; rfl) _ (by simp)]
    rfl
  | ⟨2, _⟩ =>
    unfold ScatterDims.siIdx
    rw [dif_neg (by rw [hiv]; exact (by decide : (2 : Nat) ≠ 3))]
    unfold ScatterDims.siCoord
    apply Fin.ext
    simp only [Fin.val_cast]
    rw [getElem_eq_of_list_eq hus (k' := 2) (by rw [hsk]; rfl) _ (by simp)]
    rfl
  | ⟨3, _⟩ =>
    unfold ScatterDims.siIdx
    rw [dif_pos (by rw [hiv])]
    apply Fin.ext
    show List.idxOf a d.scatterDimsToOperandDims = a.val
    rw [hsd]
    match a with
    | ⟨0, _⟩ => rfl
    | ⟨1, _⟩ => rfl
    | ⟨2, _⟩ => rfl

include hiw in
/-- No operand axis is kept (all three are inserted), so the window coordinate is 0 on every axis. -/
theorem pointScatter_window (jj : (⟨3, ![N', D', J]⟩ : Shape).Idx) (a : Fin 3) : d.window jj a = 0 := by
  have hsk : d.sKept = [] := by
    show Shape.kept _ d.insertedWindowDims = []
    rw [hiw]; rfl
  have hm : a ∉ d.sKept := by rw [hsk]; simp
  unfold ScatterDims.window
  rw [dif_neg hm]

include huw hiw hsd hiv in
/-- The result index of update `(n, e, j)` of a POINT scatter into a rank-3 operand: it is `k` exactly when the
    update's three index words, read signed, are `k`'s three coordinates. -/
theorem pointScatter_resultIdx_eq_some_iff (idx : IVec ⟨4, ![N', D', J, 3]⟩ w) (n : Fin N') (e : Fin D') (j : Fin J)
    (k : (⟨3, ![N, D, K]⟩ : Shape).Idx) :
    d.resultIdx? (ix3 n e j) idx = some k ↔
      (idx (ix4 n e j 0)).toInt = ((k 0).val : Int) ∧ (idx (ix4 n e j 1)).toInt = ((k 1).val : Int)
        ∧ (idx (ix4 n e j 2)).toInt = ((k 2).val : Int) := by
  have h0 : d.start (ix3 n e j) idx 0 = (idx (ix4 n e j 0)).toInt := pointScatter_start d huw hsd hiv idx (ix3 n e j) 0
  have h1 : d.start (ix3 n e j) idx 1 = (idx (ix4 n e j 1)).toInt := pointScatter_start d huw hsd hiv idx (ix3 n e j) 1
  have h2 : d.start (ix3 n e j) idx 2 = (idx (ix4 n e j 2)).toInt := pointScatter_start d huw hsd hiv idx (ix3 n e j) 2
  have w0 : d.window (ix3 n e j) 0 = 0 := pointScatter_window d hiw (ix3 n e j) 0
  have w1 : d.window (ix3 n e j) 1 = 0 := pointScatter_window d hiw (ix3 n e j) 1
  have w2 : d.window (ix3 n e j) 2 = 0 := pointScatter_window d hiw (ix3 n e j) 2
  have e0 : d.start (ix3 n e j) idx 0 + (d.window (ix3 n e j) 0 : Int) = (idx (ix4 n e j 0)).toInt := by
    rw [h0, w0]; simp
  have e1 : d.start (ix3 n e j) idx 1 + (d.window (ix3 n e j) 1 : Int) = (idx (ix4 n e j 1)).toInt := by
    rw [h1, w1]; simp
  have e2 : d.start (ix3 n e j) idx 2 + (d.window (ix3 n e j) 2 : Int) = (idx (ix4 n e j 2)).toInt := by
    rw [h2, w2]; simp
  have hk0 : (k 0).val < N := (k 0).isLt
  have hk1 : (k 1).val < D := (k 1).isLt
  have hk2 : (k 2).val < K := (k 2).isLt
  unfold ScatterDims.resultIdx?
  constructor
  · intro h
    split at h
    · next hin =>
      have hf := Option.some.inj h
      have f0 := congrArg (fun f => (f 0).val) hf
      have f1 := congrArg (fun f => (f 1).val) hf
      have f2 := congrArg (fun f => (f 2).val) hf
      simp only at f0 f1 f2
      have i0 := hin 0
      have i1 := hin 1
      have i2 := hin 2
      rw [e0] at i0 f0
      rw [e1] at i1 f1
      rw [e2] at i2 f2
      refine ⟨?_, ?_, ?_⟩
      · omega
      · omega
      · omega
    · exact absurd h (by simp)
  · rintro ⟨hr0, hr1, hr2⟩
    have hin : ∀ a, 0 ≤ d.start (ix3 n e j) idx a + (d.window (ix3 n e j) a : Int)
        ∧ d.start (ix3 n e j) idx a + (d.window (ix3 n e j) a : Int) < ((⟨3, ![N, D, K]⟩ : Shape).size a : Nat) := by
      intro a
      match a with
      | ⟨0, _⟩ =>
        show 0 ≤ d.start (ix3 n e j) idx 0 + (d.window (ix3 n e j) 0 : Int)
          ∧ d.start (ix3 n e j) idx 0 + (d.window (ix3 n e j) 0 : Int) < (N : Nat)
        rw [e0, hr0]; omega
      | ⟨1, _⟩ =>
        show 0 ≤ d.start (ix3 n e j) idx 1 + (d.window (ix3 n e j) 1 : Int)
          ∧ d.start (ix3 n e j) idx 1 + (d.window (ix3 n e j) 1 : Int) < (D : Nat)
        rw [e1, hr1]; omega
      | ⟨2, _⟩ =>
        show 0 ≤ d.start (ix3 n e j) idx 2 + (d.window (ix3 n e j) 2 : Int)
          ∧ d.start (ix3 n e j) idx 2 + (d.window (ix3 n e j) 2 : Int) < (K : Nat)
        rw [e2, hr2]; omega
    rw [dif_pos hin]
    congr 1
    funext a
    apply Fin.ext
    match a with
    | ⟨0, _⟩ =>
      show (d.start (ix3 n e j) idx 0 + (d.window (ix3 n e j) 0 : Int)).toNat = (k 0).val
      rw [e0, hr0]; simp
    | ⟨1, _⟩ =>
      show (d.start (ix3 n e j) idx 1 + (d.window (ix3 n e j) 1 : Int)).toNat = (k 1).val
      rw [e1, hr1]; simp
    | ⟨2, _⟩ =>
      show (d.start (ix3 n e j) idx 2 + (d.window (ix3 n e j) 2 : Int)).toNat = (k 2).val
      rw [e2, hr2]; simp

end PointScatter

end Idealize.ShloMosaic.ScatterFold
-- ==== Proof.RefValue.lean ====
/-
  The reference program computes the specification: its result, read stage by stage, is the array `G` of cubic B-spline feature rows.

  The program's result is a reshape of a two-piece concatenation: for point `n` and input coordinate `d`, the coordinate
  itself followed by 64 bins. The bins are a scatter into zeros: update `(n, d, j)`, `j = 0 … 3`, carries the `j`-th cubic
  weight of the coordinate and is written at the element whose three index words are the point number `n`, the coordinate
  number `d` and the knot `cell + j` (each word passed through a "negative? then add the extent" select that does nothing,
  the words not being negative). So the update lands on bin `k` of `(n, d)` exactly when `cell + j = k`: a bin that is one of
  the coordinate's four knots receives that knot's weight (from the one update that lands there), every other bin keeps
  the operand's zero — the specification's `bin`. The weights and the knot word are pointwise functions of the input, the
  same operations as the specification's (the first weight's cube grouped the other way round).
-/
import proofs.«161343_j72851235274859_1_alg».proof.Proof.RefRead
import proofs.«161343_j72851235274859_1_alg».proof.Proof.Spec
import proofs.«161343_j72851235274859_1_alg».proof.Proof.LibScatterFold
import proofs.«161343_j72851235274859_1_alg».proof.Proof.LibScatterPoint
import Idealize.ShloMosaic.Lib.Pipeline.Value
import Idealize.ShloMosaic.Lib.ValueIdx
import Idealize.ShloMosaic.Lib.WordArith

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.WordArith Idealize.ShloMosaic.ScatterFold Cert.BSpline

/-! ## Choosing among three or four by a small index -/

/-- The `j`-th of four. -/
def pick4 {β : Type} (j : Fin 4) (a0 a1 a2 a3 : β) : β :=
  match j with | ⟨0, _⟩ => a0 | ⟨1, _⟩ => a1 | ⟨2, _⟩ => a2 | ⟨3, _⟩ => a3

/-- The `a`-th of three. -/
def pick3 {β : Type} (a : Fin 3) (a0 a1 a2 : β) : β :=
  match a with | ⟨0, _⟩ => a0 | ⟨1, _⟩ => a1 | ⟨2, _⟩ => a2

/-! ## The three concatenations at an index -/

/-- Four one-wide pieces joined along the last axis of a rank-3 array: element `(n, d, j)` is piece `j` at `(n, d, 0)`. -/
theorem concat4_apply {α : Type}
    (h : Shape.Concatenates [(⟨3, ![1000000, 3, 1]⟩ : Shape), ⟨3, ![1000000, 3, 1]⟩, ⟨3, ![1000000, 3, 1]⟩, ⟨3, ![1000000, 3, 1]⟩] ⟨3, ![1000000, 3, 4]⟩ 2)
    (a0 a1 a2 a3 : (⟨3, ![1000000, 3, 1]⟩ : Shape).Idx → α) (n : Fin 1000000) (d : Fin 3) (j : Fin 4) :
    concatenate ⟨3, ![1000000, 3, 4]⟩ 2 [⟨⟨3, ![1000000, 3, 1]⟩, a0⟩, ⟨⟨3, ![1000000, 3, 1]⟩, a1⟩, ⟨⟨3, ![1000000, 3, 1]⟩, a2⟩, ⟨⟨3, ![1000000, 3, 1]⟩, a3⟩] h (ix3 n d j)
      = pick4 j (a0 (ix3 n d (0 : Fin 1))) (a1 (ix3 n d (0 : Fin 1))) (a2 (ix3 n d (0 : Fin 1))) (a3 (ix3 n d (0 : Fin 1))) := by
  have key := concatenate_apply_piece (α := α) (t := ⟨3, ![1000000, 3, 4]⟩) 2
    [⟨⟨3, ![1000000, 3, 1]⟩, a0⟩, ⟨⟨3, ![1000000, 3, 1]⟩, a1⟩, ⟨⟨3, ![1000000, 3, 1]⟩, a2⟩, ⟨⟨3, ![1000000, 3, 1]⟩, a3⟩] h
  match j with
  | ⟨0, _⟩ =>
    refine key _ 0 (by show 0 < 4; omega) ⟨3, ![1000000, 3, 1]⟩ a0 rfl rfl 0 rfl (ix3 n d (0 : Fin 1)) (fun b hb => ?_) rfl
    match b with
    | ⟨0, _⟩ => rfl
    | ⟨1, _⟩ => rfl
    | ⟨2, _⟩ => exact absurd rfl hb
  | ⟨1, _⟩ =>
    refine key _ 1 (by show 1 < 4; omega) ⟨3, ![1000000, 3, 1]⟩ a1 rfl rfl 1 rfl (ix3 n d (0 : Fin 1)) (fun b hb => ?_) rfl
    match b with
    | ⟨0, _⟩ => rfl
    | ⟨1, _⟩ => rfl
    | ⟨2, _⟩ => exact absurd rfl hb
  | ⟨2, _⟩ =>
    refine key _ 2 (by show 2 < 4; omega) ⟨3, ![1000000, 3, 1]⟩ a2 rfl rfl 2 rfl (ix3 n d (0 : Fin 1)) (fun b hb => ?_) rfl
    match b with
    | ⟨0, _⟩ => rfl
    | ⟨1, _⟩ => rfl
    | ⟨2, _⟩ => exact absurd rfl hb
  | ⟨3, _⟩ =>
    refine key _ 3 (by show 3 < 4; omega) ⟨3, ![1000000, 3, 1]⟩ a3 rfl rfl 3 rfl (ix3 n d (0 : Fin 1)) (fun b hb => ?_) rfl
    match b with
    | ⟨0, _⟩ => rfl
    | ⟨1, _⟩ => rfl
    | ⟨2, _⟩ => exact absurd rfl hb

/-- Three one-wide pieces joined along the last axis of a rank-4 array: element `(n, d, j, a)` is piece `a` at `(n, d, j, 0)`. -/
theorem concat3_apply {α : Type}
    (h : Shape.Concatenates [(⟨4, ![1000000, 3, 4, 1]⟩ : Shape), ⟨4, ![1000000, 3, 4, 1]⟩, ⟨4, ![1000000, 3, 4, 1]⟩] ⟨4, ![1000000, 3, 4, 3]⟩ 3)
    (a0 a1 a2 : (⟨4, ![1000000, 3, 4, 1]⟩ : Shape).Idx → α) (n : Fin 1000000) (d : Fin 3) (j : Fin 4) (a : Fin 3) :
    concatenate ⟨4, ![1000000, 3, 4, 3]⟩ 3 [⟨⟨4, ![1000000, 3, 4, 1]⟩, a0⟩, ⟨⟨4, ![1000000, 3, 4, 1]⟩, a1⟩, ⟨⟨4, ![1000000, 3, 4, 1]⟩, a2⟩] h (ix4 n d j a)
      = pick3 a (a0 (ix4 n d j (0 : Fin 1))) (a1 (ix4 n d j (0 : Fin 1))) (a2 (ix4 n d j (0 : Fin 1))) := by
  have key := concatenate_apply_piece (α := α) (t := ⟨4, ![1000000, 3, 4, 3]⟩) 3
    [⟨⟨4, ![1000000, 3, 4, 1]⟩, a0⟩, ⟨⟨4, ![1000000, 3, 4, 1]⟩, a1⟩, ⟨⟨4, ![1000000, 3, 4, 1]⟩, a2⟩] h
  match a with
  | ⟨0, _⟩ =>
    refine key _ 0 (by show 0 < 3; omega) ⟨4, ![1000000, 3, 4, 1]⟩ a0 rfl rfl 0 rfl (ix4 n d j (0 : Fin 1)) (fun b hb => ?_) rfl
    match b with
    | ⟨0, _⟩ => rfl
    | ⟨1, _⟩ => rfl
    | ⟨2, _⟩ => rfl
    | ⟨3, _⟩ => exact absurd rfl hb
  | ⟨1, _⟩ =>
    refine key _ 1 (by show 1 < 3; omega) ⟨4, ![1000000, 3, 4, 1]⟩ a1 rfl rfl 1 rfl (ix4 n d j (0 : Fin 1)) (fun b hb => ?_) rfl
    match b with
    | ⟨0, _⟩ => rfl
    | ⟨1, _⟩ => rfl
    | ⟨2, _⟩ => rfl
    | ⟨3, _⟩ => exact absurd rfl hb
  | ⟨2, _⟩ =>
    refine key _ 2 (by show 2 < 3; omega) ⟨4, ![1000000, 3, 4, 1]⟩ a2 rfl rfl 2 rfl (ix4 n d j (0 : Fin 1)) (fun b hb => ?_) rfl
    match b with
    | ⟨0, _⟩ => rfl
    | ⟨1, _⟩ => rfl
    | ⟨2, _⟩ => rfl
    | ⟨3, _⟩ => exact absurd rfl hb

/-- A one-wide piece and a 64-wide piece joined along the last axis of a rank-3 array: element `(n, d, 0)` is the first
    piece at `(n, d, 0)`, element `(n, d, 1 + k)` the second at `(n, d, k)`. -/
theorem concat2_apply {α : Type}
    (h : Shape.Concatenates [(⟨3, ![1000000, 3, 1]⟩ : Shape), ⟨3, ![1000000, 3, 64]⟩] ⟨3, ![1000000, 3, 65]⟩ 2)
    (a0 : (⟨3, ![1000000, 3, 1]⟩ : Shape).Idx → α) (f0 : (⟨3, ![1000000, 3, 64]⟩ : Shape).Idx → α) (n : Fin 1000000) (d : Fin 3) (r : Fin 65) :
    concatenate ⟨3, ![1000000, 3, 65]⟩ 2 [⟨⟨3, ![1000000, 3, 1]⟩, a0⟩, ⟨⟨3, ![1000000, 3, 64]⟩, f0⟩] h (ix3 n d r)
      = if r.val = 0 then a0 (ix3 n d (0 : Fin 1)) else f0 (ix3 n d ⟨(r.val - 1) % 64, Nat.mod_lt _ (by norm_num)⟩) := by
  have hr : r.val < 65 := r.isLt
  have key := concatenate_apply_piece (α := α) (t := ⟨3, ![1000000, 3, 65]⟩) 2
    [⟨⟨3, ![1000000, 3, 1]⟩, a0⟩, ⟨⟨3, ![1000000, 3, 64]⟩, f0⟩] h (ix3 n d r)
  by_cases c0 : r.val = 0
  · rw [if_pos c0]
    refine key 0 (by show 0 < 2; omega) ⟨3, ![1000000, 3, 1]⟩ a0 rfl rfl 0 rfl (ix3 n d (0 : Fin 1)) (fun b hb => ?_) ?_
    · match b with
      | ⟨0, _⟩ => rfl
      | ⟨1, _⟩ => rfl
      | ⟨2, _⟩ => exact absurd rfl hb
    · show 0 + 0 = r.val; omega
  · rw [if_neg c0]
    refine key 1 (by show 1 < 2; omega) ⟨3, ![1000000, 3, 64]⟩ f0 rfl rfl 1 rfl (ix3 n d ⟨(r.val - 1) % 64, Nat.mod_lt _ (by norm_num)⟩) (fun b hb => ?_) ?_
    · match b with
      | ⟨0, _⟩ => rfl
      | ⟨1, _⟩ => rfl
      | ⟨2, _⟩ => exact absurd rfl hb
    · show 1 + (r.val - 1) % 64 = r.val; omega

/-! ## Words -/

/-- A select on "the word is negative" of a word that is not negative is the word. -/
theorem select_slt_zero_of_nonneg (s t : BitVec 32) (h : 0 ≤ s.toInt) : Scalar.select (IntOp.cmpi .slt s 0#32) t s = s := by
  have hf : s.slt 0#32 = false := by
    rw [BitVec.slt]
    simp only [BitVec.toInt_zero, decide_eq_false_iff_not, not_lt]
    exact h
  show Scalar.select (BitVec.ofBool (s.slt 0#32)) t s = s
  rw [hf]
  exact select_zero _ _

/-- The knot word plus a small offset, read signed, is the sum. -/
theorem toInt_cell_add (y : EReal) (j : Nat) (hj : j < 4) : (cell y + BitVec.ofNat 32 j).toInt = (cell y).toInt + (j : Int) := by
  have hc := cell_toInt y
  have hjj : (BitVec.ofNat 32 j).toInt = (j : Int) := toInt_ofNat_small j (by omega)
  rw [toInt_add_of_bounds _ _ (by rw [hjj]; omega) (by rw [hjj]; omega), hjj]

/-- Bin number `k` (below 64) is the knot `cell y + j` exactly when the integers agree. -/
theorem ofNat_eq_cell_add_iff (y : EReal) (k : Nat) (hk : k < 64) (j : Nat) (hj : j < 4) :
    BitVec.ofNat 32 k = cell y + BitVec.ofNat 32 j ↔ (cell y).toInt + (j : Int) = (k : Int) := by
  rw [← BitVec.toInt_inj, toInt_ofNat_small k (by omega), toInt_cell_add y j hj]
  exact eq_comm

/-- The bin that is the `j`-th of the coordinate's four knots holds the `j`-th weight. -/
theorem bin_eq_of (y : EReal) (k : Nat) (hk : k < 64) (j : Fin 4) (h : (cell y).toInt + (j.val : Int) = (k : Int)) :
    bin y k = pick4 j (w0 y) (w1 y) (w2 y) (w3 y) := by
  have t0 : BitVec.ofNat 32 k = cell y ↔ (cell y).toInt + ((0 : Nat) : Int) = (k : Int) := by
    have := ofNat_eq_cell_add_iff y k hk 0 (by omega)
    rwa [show BitVec.ofNat 32 0 = 0#32 from rfl, BitVec.add_zero] at this
  have t1 := ofNat_eq_cell_add_iff y k hk 1 (by omega)
  have t2 := ofNat_eq_cell_add_iff y k hk 2 (by omega)
  have t3 := ofNat_eq_cell_add_iff y k hk 3 (by omega)
  unfold bin
  match j, h with
  | ⟨0, _⟩, h =>
    rw [if_pos (t0.2 (by simpa using h))]; rfl
  | ⟨1, _⟩, h =>
    have h' : (cell y).toInt + 1 = (k : Int) := by simpa using h
    rw [if_neg (fun e => by have := t0.1 e; omega), if_pos (t1.2 (by simpa using h'))]; rfl
  | ⟨2, _⟩, h =>
    have h' : (cell y).toInt + 2 = (k : Int) := by simpa using h
    rw [if_neg (fun e => by have := t0.1 e; omega), if_neg (fun e => by have := t1.1 e; omega), if_pos (t2.2 (by simpa using h'))]; rfl
  | ⟨3, _⟩, h =>
    have h' : (cell y).toInt + 3 = (k : Int) := by simpa using h
    rw [if_neg (fun e => by have := t0.1 e; omega), if_neg (fun e => by have := t1.1 e; omega),
      if_neg (fun e => by have := t2.1 e; omega), if_pos (t3.2 (by simpa using h'))]; rfl

/-- A bin that is none of the coordinate's four knots holds 0. -/
theorem bin_eq_zero (y : EReal) (k : Nat) (hk : k < 64) (h : ∀ j : Fin 4, (cell y).toInt + (j.val : Int) ≠ (k : Int)) :
    bin y k = 0 := by
  have t0 : BitVec.ofNat 32 k = cell y ↔ (cell y).toInt + ((0 : Nat) : Int) = (k : Int) := by
    have := ofNat_eq_cell_add_iff y k hk 0 (by omega)
    rwa [show BitVec.ofNat 32 0 = 0#32 from rfl, BitVec.add_zero] at this
  have t1 := ofNat_eq_cell_add_iff y k hk 1 (by omega)
  have t2 := ofNat_eq_cell_add_iff y k hk 2 (by omega)
  have t3 := ofNat_eq_cell_add_iff y k hk 3 (by omega)
  unfold bin
  rw [if_neg (fun e => h 0 (t0.1 e)), if_neg (fun e => h 1 (t1.1 e)), if_neg (fun e => h 2 (t2.1 e)), if_neg (fun e => h 3 (t3.1 e))]

/-! ## The pointwise stages at a point and coordinate -/

/-- The input array, as the stages take it. -/
abbrev XT : Type := (⟨S1000000x3, .f32⟩ : BufTy).Contents (Elt Ideal)

theorem cell_eq (X : XT) (n : Fin 1000000) (d : Fin 3) : val_main_v6 (F := Ideal) X (ix2 n d) = cell (X (ix2 n d)) := rfl

/-- The first weight: the program cubes `1 − u` as `((1−u)(1−u))(1−u)`, the specification as `(1−u)((1−u)(1−u))`. -/
theorem w0_eq (X : XT) (n : Fin 1000000) (d : Fin 3) : val_main_v16 (F := Ideal) X (ix2 n d) = w0 (X (ix2 n d)) := by
  have e : ∀ a : EReal, a * (a * a) = a * a * a := fun a => (mul_comm (a * a) a).symm
  unfold w0
  rw [e]
  rfl
theorem w1_eq (X : XT) (n : Fin 1000000) (d : Fin 3) : val_main_v25 (F := Ideal) X (ix2 n d) = w1 (X (ix2 n d)) := rfl
theorem w2_eq (X : XT) (n : Fin 1000000) (d : Fin 3) : val_main_v37 (F := Ideal) X (ix2 n d) = w2 (X (ix2 n d)) := rfl
theorem w3_eq (X : XT) (n : Fin 1000000) (d : Fin 3) : val_main_v39 (F := Ideal) X (ix2 n d) = w3 (X (ix2 n d)) := rfl

/-! ## The updates: the four weights side by side -/

/-- The index a broadcast along a new unit last axis reads: the first two coordinates. -/
theorem drop_last (n : Fin 1000000) (d : Fin 3) : idx_main_v40 (ix3 n d (0 : Fin 1)) = ix2 n d :=
  funext fun a => match a with | ⟨0, _⟩ => rfl | ⟨1, _⟩ => rfl

theorem v40_eq (X : XT) (n : Fin 1000000) (d : Fin 3) : val_main_v40 (F := Ideal) X (ix3 n d (0 : Fin 1)) = w0 (X (ix2 n d)) := by
  rw [val_main_v40_apply]
  exact (congrArg (val_main_v16 (F := Ideal) X) (drop_last n d)).trans (w0_eq X n d)
theorem v41_eq (X : XT) (n : Fin 1000000) (d : Fin 3) : val_main_v41 (F := Ideal) X (ix3 n d (0 : Fin 1)) = w1 (X (ix2 n d)) := by
  rw [val_main_v41_apply]
  exact (congrArg (val_main_v25 (F := Ideal) X) (drop_last n d)).trans (w1_eq X n d)
theorem v42_eq (X : XT) (n : Fin 1000000) (d : Fin 3) : val_main_v42 (F := Ideal) X (ix3 n d (0 : Fin 1)) = w2 (X (ix2 n d)) := by
  rw [val_main_v42_apply]
  exact (congrArg (val_main_v37 (F := Ideal) X) (drop_last n d)).trans (w2_eq X n d)
theorem v43_eq (X : XT) (n : Fin 1000000) (d : Fin 3) : val_main_v43 (F := Ideal) X (ix3 n d (0 : Fin 1)) = w3 (X (ix2 n d)) := by
  rw [val_main_v43_apply]
  exact (congrArg (val_main_v39 (F := Ideal) X) (drop_last n d)).trans (w3_eq X n d)

/-- Update `(n, d, j)` is the `j`-th weight of coordinate `d` of point `n`. -/
theorem upd_eq (X : XT) (n : Fin 1000000) (d : Fin 3) (j : Fin 4) :
    val_main_v44 (F := Ideal) X (ix3 n d j) = pick4 j (w0 (X (ix2 n d))) (w1 (X (ix2 n d))) (w2 (X (ix2 n d))) (w3 (X (ix2 n d))) := by
  unfold val_main_v44
  rw [concat4_apply, v40_eq, v41_eq, v42_eq, v43_eq]

/-! ## The scatter indices: point number, coordinate number, knot -/

/-- The point-number word: the iota word of `n`, which is not negative, so the select keeps it. -/
theorem v60_eq (n : Fin 1000000) : val_main_v60 (F := Ideal) (ix3 n (0 : Fin 1) (0 : Fin 1)) = BitVec.ofNat 32 n.val := by
  have hn := n.isLt
  have h52 : val_main_v52 (F := Ideal) (ix3 n (0 : Fin 1) (0 : Fin 1)) = BitVec.ofNat 32 n.val := by
    rw [val_main_v52_apply]; rfl
  rw [val_main_v60_apply, val_main_v57_apply, val_main_v56_apply, val_main_c_apply, h52]
  exact select_slt_zero_of_nonneg _ _ (by rw [toInt_ofNat_small _ (by omega)]; omega)

/-- The coordinate-number word, likewise. -/
theorem v65_eq (d : Fin 3) : val_main_v65 (F := Ideal) (ix3 (0 : Fin 1) d (0 : Fin 1)) = BitVec.ofNat 32 d.val := by
  have hd := d.isLt
  have h54 : val_main_v54 (F := Ideal) (ix3 (0 : Fin 1) d (0 : Fin 1)) = BitVec.ofNat 32 d.val := by
    rw [val_main_v54_apply]; rfl
  rw [val_main_v65_apply, val_main_v62_apply, val_main_v61_apply, val_main_c_17_apply, h54]
  exact select_slt_zero_of_nonneg _ _ (by rw [toInt_ofNat_small _ (by omega)]; omega)

/-- The knot word of update `j`: the coordinate's knot word plus `j`. -/
theorem v50_eq (X : XT) (n : Fin 1000000) (d : Fin 3) (j : Fin 4) :
    val_main_v50 (F := Ideal) X (ix3 n d j) = cell (X (ix2 n d)) + BitVec.ofNat 32 j.val := by
  have h1 : idx_main_v45 (idx_main_v48 (ix3 n d j)) = ix2 n d :=
    funext fun a => match a with | ⟨0, _⟩ => rfl | ⟨1, _⟩ => rfl
  rw [val_main_v50_apply, val_main_v48_apply, val_main_v45_apply, val_main_v49_apply, val_main_v47_apply, val_main_v46_apply, h1, cell_eq]
  rfl

/-- It is between 0 and 64, so the select keeps it. -/
theorem v70_eq (X : XT) (n : Fin 1000000) (d : Fin 3) (j : Fin 4) :
    val_main_v70 (F := Ideal) X (ix3 n d j) = cell (X (ix2 n d)) + BitVec.ofNat 32 j.val := by
  rw [val_main_v70_apply, val_main_v67_apply, val_main_v66_apply, val_main_c_19_apply, v50_eq]
  have hc := cell_toInt (X (ix2 n d))
  have hj := j.isLt
  exact select_slt_zero_of_nonneg _ _ (by rw [toInt_cell_add _ _ hj]; omega)

theorem idx0_eq (X : XT) (n : Fin 1000000) (d : Fin 3) (j : Fin 4) :
    val_main_v76 (F := Ideal) X (ix4 n d j (0 : Fin 3)) = BitVec.ofNat 32 n.val := by
  have h1 : idx_main_v71 (idx_main_v73 (ix4 n d j (0 : Fin 1))) = ix3 n (0 : Fin 1) (0 : Fin 1) :=
    funext fun a => match a with | ⟨0, _⟩ => rfl | ⟨1, _⟩ => rfl | ⟨2, _⟩ => rfl
  unfold val_main_v76
  rw [concat3_apply]
  show val_main_v73 (F := Ideal) (ix4 n d j (0 : Fin 1)) = _
  rw [val_main_v73_apply, val_main_v71_apply, h1]
  exact v60_eq n

theorem idx1_eq (X : XT) (n : Fin 1000000) (d : Fin 3) (j : Fin 4) :
    val_main_v76 (F := Ideal) X (ix4 n d j (1 : Fin 3)) = BitVec.ofNat 32 d.val := by
  have h1 : idx_main_v72 (idx_main_v74 (ix4 n d j (0 : Fin 1))) = ix3 (0 : Fin 1) d (0 : Fin 1) :=
    funext fun a => match a with | ⟨0, _⟩ => rfl | ⟨1, _⟩ => rfl | ⟨2, _⟩ => rfl
  unfold val_main_v76
  rw [concat3_apply]
  show val_main_v74 (F := Ideal) (ix4 n d j (0 : Fin 1)) = _
  rw [val_main_v74_apply, val_main_v72_apply, h1]
  exact v65_eq d

theorem idx2_eq (X : XT) (n : Fin 1000000) (d : Fin 3) (j : Fin 4) :
    val_main_v76 (F := Ideal) X (ix4 n d j (2 : Fin 3)) = cell (X (ix2 n d)) + BitVec.ofNat 32 j.val := by
  have h1 : idx_main_v75 (ix4 n d j (0 : Fin 1)) = ix3 n d j :=
    funext fun a => match a with | ⟨0, _⟩ => rfl | ⟨1, _⟩ => rfl | ⟨2, _⟩ => rfl
  unfold val_main_v76
  rw [concat3_apply]
  show val_main_v75 (F := Ideal) X (ix4 n d j (0 : Fin 1)) = _
  rw [val_main_v75_apply, h1]
  exact v70_eq X n d j

/-! ## The scatter at a bin -/

/-- Update `(n', e', j')` lands on bin `k` of coordinate `d` of point `n` exactly when it is an update of that point and
    coordinate and its knot is `k`. -/
theorem lands (X : XT) (n' : Fin 1000000) (e' : Fin 3) (j' : Fin 4) (n : Fin 1000000) (d : Fin 3) (k : Fin 64) :
    scatter_S1000000x3x64_S1000000x3x4x3_S1000000x3x4_n_012_012_3.resultIdx? (ix3 n' e' j') (val_main_v76 (F := Ideal) X) = some (ix3 n d k)
      ↔ n' = n ∧ e' = d ∧ (cell (X (ix2 n' e'))).toInt + (j'.val : Int) = (k.val : Int) := by
  have hn' := n'.isLt
  have he' := e'.isLt
  rw [pointScatter_resultIdx_eq_some_iff scatter_S1000000x3x64_S1000000x3x4x3_S1000000x3x4_n_012_012_3 rfl rfl rfl rfl
    (val_main_v76 (F := Ideal) X) n' e' j' (ix3 n d k)]
  rw [idx0_eq, idx1_eq, idx2_eq, toInt_ofNat_small _ (by omega), toInt_ofNat_small _ (by omega), toInt_cell_add _ _ j'.isLt]
  show (n'.val : Int) = (n.val : Int) ∧ (e'.val : Int) = (d.val : Int) ∧ (cell (X (ix2 n' e'))).toInt + (j'.val : Int) = (k.val : Int) ↔ _
  constructor
  · rintro ⟨h0, h1, h2⟩
    exact ⟨Fin.ext (by omega), Fin.ext (by omega), h2⟩
  · rintro ⟨rfl, rfl, h2⟩
    exact ⟨rfl, rfl, h2⟩

/-- The scatter's result at bin `k` of coordinate `d` of point `n` is the specification's bin. -/
theorem feat_eq (X : XT) (n : Fin 1000000) (d : Fin 3) (k : Fin 64) :
    val_main_v77 (F := Ideal) X (ix3 n d k) = bin (X (ix2 n d)) k.val := by
  unfold val_main_v77
  by_cases hj : ∃ j : Fin 4, (cell (X (ix2 n d))).toInt + (j.val : Int) = (k.val : Int)
  · obtain ⟨j, hj⟩ := hj
    rw [bin_eq_of _ _ k.isLt j hj]
    refine scatter_set_apply _ _ _ _ _ _ ⟨ix3 n d j, (lands X n d j n d k).2 ⟨rfl, rfl, hj⟩⟩ ?_
    intro jj hjj
    obtain ⟨n', e', j', rfl⟩ : ∃ (n' : Fin 1000000) (e' : Fin 3) (j' : Fin 4), jj = ix3 n' e' j' := ⟨jj 0, jj 1, jj 2, eq_ix3 jj⟩
    obtain ⟨rfl, rfl, h2⟩ := (lands X n' e' j' _ _ k).1 hjj
    have hj2 : j' = j := Fin.ext (by omega)
    rw [hj2]
    exact upd_eq X _ _ j
  · rw [bin_eq_zero _ _ k.isLt (fun j h => hj ⟨j, h⟩)]
    have hno : ∀ jj : S1000000x3x4.Idx,
        scatter_S1000000x3x64_S1000000x3x4x3_S1000000x3x4_n_012_012_3.resultIdx? jj (val_main_v76 (F := Ideal) X) ≠ some (ix3 n d k) := by
      intro jj hjj
      obtain ⟨n', e', j', rfl⟩ : ∃ (n' : Fin 1000000) (e' : Fin 3) (j' : Fin 4), jj = ix3 n' e' j' := ⟨jj 0, jj 1, jj 2, eq_ix3 jj⟩
      obtain ⟨rfl, rfl, h2⟩ := (lands X n' e' j' _ _ k).1 hjj
      exact hj ⟨j', h2⟩
    rw [scatter_apply_of_forall_ne _ _ _ _ _ _ hno, val_main_v55_apply, val_main_cst_15_apply]
    exact ofBits_zero

/-! ## The row -/

/-- Coordinate `d` of point `n` followed by its 64 bins. -/
theorem v79_eq (X : XT) (n : Fin 1000000) (d : Fin 3) (r : Fin 65) :
    val_main_v79 (F := Ideal) X (ix3 n d r) = if r.val = 0 then X (ix2 n d) else bin (X (ix2 n d)) (r.val - 1) := by
  have hr := r.isLt
  have h1 : idx_main_v78 (ix3 n d (0 : Fin 1)) = ix2 n d :=
    funext fun a => match a with | ⟨0, _⟩ => rfl | ⟨1, _⟩ => rfl
  unfold val_main_v79
  rw [concat2_apply]
  by_cases c0 : r.val = 0
  · rw [if_pos c0, if_pos c0, val_main_v78_apply, h1]
  · rw [if_neg c0, if_neg c0, feat_eq]
    congr 1
    show (r.val - 1) % 64 = r.val - 1
    omega

/-- The reference program's result is the specification. -/
theorem ref_eq (X : (⟨2, ![1000000, 3]⟩ : Shape).Idx → EReal) : Cert.ReferenceIdeal.ReadP.val_main_v80 (F := Ideal) X = Cert.BSpline.G X := by
  funext i
  obtain ⟨n, q, rfl⟩ : ∃ (n : Fin 1000000) (q : Fin 195), i = ix2 n q := ⟨i 0, i 1, eq_ix2 i⟩
  have hq := q.isLt
  have hn := n.isLt
  have hidx : idx_main_v80 (ix2 n q) = ix3 n (⟨q.val / 65, by omega⟩ : Fin 3) (⟨q.val % 65, by omega⟩ : Fin 65) := by
    funext a
    match a with
    | ⟨0, _⟩ => apply Fin.ext; show (n.val * 195 + q.val) / 195 = n.val; omega
    | ⟨1, _⟩ => apply Fin.ext; show (n.val * 195 + q.val) / 65 % 3 = q.val / 65; omega
    | ⟨2, _⟩ => apply Fin.ext; show (n.val * 195 + q.val) % 65 = q.val % 65; omega
  rw [val_main_v80_apply, hidx, v79_eq]
  rfl

end Cert.ReferenceIdeal.RefValue

end
-- ==== Proof.lean ====
/-
  Cubic B-spline features of a point cloud, [1000000, 3] → [1000000, 195]: the Pallas kernel against its jnp reference.

  Both programs compute, for every point n and input coordinate d, the clamped knot-space coordinate
  `min 61 (max 0 ((x + 1) · 30.5))`, its integer part c (a 32-bit word between 0 and 61), the local coordinate u and the four
  cubic B-spline weights of u, with the same operations on the same literal words. They differ in how the four weights reach
  the 64 bins of (n, d): the kernel sums, for every bin k, the weights against the 0/1 masks "k = c + j" (j = 0 … 3); the
  reference scatters weight j to bin c + j of a zero array, an update past the last bin being dropped. The four knots
  c, c + 1, c + 2, c + 3 are distinct, so bin k receives exactly the weight of the knot k is (none: 0) on both sides — on the
  extended reals too, where a · 1 = a and a · 0 = 0 for every a, so the precondition's finiteness is not used. Around the bins
  both lay the input coordinate in front of them, [x_d, bins_d] for d = 0, 1, 2, the kernel by a concatenation of six pieces,
  the reference by a concatenation along a third axis and a reshape: the same columns.

  The specification (Proof/Spec.lean: `G`) states that common value element by element; Proof/KernelRow.lean and
  Proof/KernelValue.lean show the kernel's result array is `G` of its argument, Proof/RefValue.lean that the reference's is.
  The frames of the two kernels are the generated ones; the reference's frame is its run with the result dropped.
-/
import proofs.«161343_j72851235274859_1_alg».proof.Defs
import proofs.«161343_j72851235274859_1_alg».proof.Proof.Gen.Kernel
import proofs.«161343_j72851235274859_1_alg».proof.Proof.Gen.Kernel.Skeleton
import proofs.«161343_j72851235274859_1_alg».proof.Proof.Gen.Kernel.Launch
import proofs.«161343_j72851235274859_1_alg».proof.Proof.Gen.Kernel.Points
import proofs.«161343_j72851235274859_1_alg».proof.Proof.Gen.Kernel.Frame
import proofs.«161343_j72851235274859_1_alg».proof.Proof.Gen.KernelIdeal
import proofs.«161343_j72851235274859_1_alg».proof.Proof.Gen.KernelIdeal.Skeleton
import proofs.«161343_j72851235274859_1_alg».proof.Proof.Gen.KernelIdeal.Launch
import proofs.«161343_j72851235274859_1_alg».proof.Proof.Gen.KernelIdeal.Points
import proofs.«161343_j72851235274859_1_alg».proof.Proof.Gen.KernelIdeal.Frame
import proofs.«161343_j72851235274859_1_alg».proof.Proof.Gen.ReferenceIdeal
import proofs.«161343_j72851235274859_1_alg».proof.Proof.Gen.Pre_finite_inputs
import proofs.«161343_j72851235274859_1_alg».proof.Proof.KernelValue
import proofs.«161343_j72851235274859_1_alg».proof.Proof.RefRun
import proofs.«161343_j72851235274859_1_alg».proof.Proof.RefRead
import proofs.«161343_j72851235274859_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument alone: the generated frame. -/
theorem frame_k [Cert.Kernel.Facts] [Cert.Pre_finite_inputs.Facts] : Cert.frame_Kernel :=
  fun m ρ _ => Cert.Kernel.Gen.frame m ρ

/-- So does the idealized kernel. -/
theorem frame_ki [Cert.KernelIdeal.Facts] [Cert.Pre_finite_inputs.Facts] : Cert.frame_KernelIdeal :=
  fun m ρ _ => Cert.KernelIdeal.Gen.frame m ρ

/-- The reference is a straight line of host operations: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- Both idealized programs end with the result array at `G` of the argument array they agree on. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.BSpline.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v80_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
